-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .bf16⟩
  | .local _ .vmem, ⟨0, _⟩ => ⟨S256x256, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v23 : BitVec 32 := Scalar.muli v2 c8_i32_13
  let v24 : BitVec 32 := Scalar.addi c0_i32_14 v23
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_15 : BitVec 32 := 4#32
  let v25 : BitVec 32 := Scalar.muli v9 c4_i32_15
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v27 : BitVec 32 := Scalar.muli v8 c1_i32_16
  let v28 : BitVec 32 := Scalar.addi v26 v27
  v28.toNat
def k0_dev3 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v35 : BitVec 32 := Scalar.muli v2 c8_i32_23
  let v36 : BitVec 32 := Scalar.addi c0_i32_24 v35
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_25 : BitVec 32 := 4#32
  let v37 : BitVec 32 := Scalar.muli v9 c4_i32_25
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v39 : BitVec 32 := Scalar.muli v8 c1_i32_26
  let v40 : BitVec 32 := Scalar.addi v38 v39
  v40.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  wordsbf16_S256x256_S128x256_0_0 : (Rect.unit (s := S256x256) ![0, 0] S128x256.size inb_S256x256_S128x256_0_0).WholeWords (EltTy.packing .bf16)
  inb_S2_S1_1 : ∀ a, (![1] : Fin 1 → Nat) a + S1.size a ≤ S2.size a
  inb_S256x256_S128x256_128_0 : ∀ a, (![128, 0] : Fin 2 → Nat) a + S128x256.size a ≤ S256x256.size a
  wordsbf16_S256x256_S128x256_128_0 : (Rect.unit (s := S256x256) ![128, 0] S128x256.size inb_S256x256_S128x256_128_0).WholeWords (EltTy.packing .bf16)
  h_S128x256 : 0 < S128x256.numel
  packedbf16_S256x256_S128x256_0_0 : (Rect.unit (s := S256x256) ![0, 0] S128x256.size inb_S256x256_S128x256_0_0).PackedRows (EltTy.packing .bf16)
  packedbf16_S256x256_S128x256_128_0 : (Rect.unit (s := S256x256) ![128, 0] S128x256.size inb_S256x256_S128x256_128_0).PackedRows (EltTy.packing .bf16)
  hcc0_scratch2 : 2 + S2.numel ≤ 6
  hcc0_scratch3 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | .hbm, ⟨4, _⟩ => ⟨S256x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel
  bitsLt_bf16_f32 : FTy.bits .bf16 < FTy.bits .f32

variable [Facts₀]

class Facts : Prop extends Facts₀ where

variable [Facts]
-- ==== Proof.Kernel.Spec.lean ====
/-
  What the exchange computes, as one statement. Sixteen devices in a 2 × 2 × 4 mesh; a device's partner differs from it
  in the middle coordinate only, so the partner map is an involution. Each device rounds its 256 × 256 block of `x`
  to bf16, sends the rounded block to its partner in two halves of 128 rows and adds, half by half, what it receives to
  what it sent. The two half stores cover the result block, so the result is one whole-block sum: the device's rounded
  block plus its partner's.
-/
import proofs.«900714_g7700000000000715_dist_ar_v7x_xyz2x2x4_y_m256_n256_bf16_1_alg».proof.Proof.Gen.Kernel.Skeleton

noncomputable section

namespace Cert.Kernel.Exch

open Cert.Kernel Cert.Kernel.Gen
open Idealize.ShloMosaic Idealize.ShloMosaic.TcCoe Idealize.SL.Sem

variable {F : FTy → Type} [FloatOps F]

/-- The partner of device `c`: the device at the same `x` and `z` coordinates and the other `y` coordinate. -/
def peer (c : Dev nD) : Dev nD := ⟨k0_dev1 c, k0_dev1_lt c⟩

theorem peer_val (c : Dev nD) : (peer c).val = (8 * (c.val / 8) + (c.val % 4) + 4) - 4 * ((c.val / 4) % 2) := k0_dev1_eq c

/-- The partner's partner is the device itself. -/
theorem peer_peer (c : Dev nD) : peer (peer c) = c := by
  apply Fin.ext; rw [peer_val, peer_val]; revert c; decide

theorem peer_ne (c : Dev nD) : peer c ≠ c := by
  intro h; have := congrArg Fin.val h; rw [peer_val] at this; revert c; decide

/-- All three printed device chains name the partner. -/
theorem dev1_eq (c : Dev nD) : (⟨k0_dev1 c, k0_dev1_lt c⟩ : Dev nD) = peer c := rfl
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)

variable (m : (ℓ : Loc nD τ sig) → Buf (Elt F) ℓ)

/-- Device `c`'s block of `x` as launched. -/
def xblk (c : Dev nD) : Vec F S256x256 .f32 := m ((c : Thread nD τ).loc main_arg0)

/-- The block rounded to bf16: what device `c` keeps in its send buffer and what its partner receives. -/
def sent (c : Dev nD) : FVec F S256x256 .bf16 := k0_pay1 (xblk m c)

/-- The result block of device `c`: its rounded block plus its partner's, entry by entry. -/
def resultAt (c : Dev nD) : Buf (Elt F) ((c : Thread nD τ).loc main_v1) := addf (sent m c) (sent m (peer c))

end Cert.Kernel.Exch

end
-- ==== Proof.Kernel.Cells.lean ====
/-
  The exchange's protocol, as a schedule of rounds. Every device has five cells: its barrier cell and, for each of the
  two 128-row halves, a send cell and a receive cell. Each cell lives one round with one duty.
  * The barrier cell of device `c` is paid one unit by its partner's entry signal; with it the partner hands over its
    whole receive buffer (at any contents) and the fact that its two receive cells stand at round 0 — what `c` needs to
    copy into that buffer.
  * The send cell of half `k` is paid by the device's own copy once the source half is read: the source half of the send
    buffer comes back, at the share that was lent (the other share stays with the device, which reads the half again
    while the copy is pending).
  * The receive cell of half `k` is paid by the partner's copy once the half is written: the half of the receive buffer
    comes with it, holding the partner's rounded block on those rows.
  A device owes, from the start: one unit to its partner's barrier cell and a half's credit to each of its partner's
  receive cells. It waits on its barrier cell (level 1) while still owing the receive credits (level 2), and on every
  other cell owing nothing: no cycle of waits.
-/
import proofs.«900714_g7700000000000715_dist_ar_v7x_xyz2x2x4_y_m256_n256_bf16_1_alg».proof.Proof.Kernel.Spec
import proofs.«900714_g7700000000000715_dist_ar_v7x_xyz2x2x4_y_m256_n256_bf16_1_alg».proof.Proof.Gen.Kernel.Launch
import proofs.«900714_g7700000000000715_dist_ar_v7x_xyz2x2x4_y_m256_n256_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the exchange's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## Buffers, halves and cells -/

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1

/-- The whole block, rows 0–127 and rows 128–255. -/
abbrev rcW : Rect S256x256 := Rect.unit (s := S256x256) ![0, 0] S256x256.size inb_S256x256_S256x256_0_0
abbrev rc0 : Rect S256x256 := Rect.unit (s := S256x256) ![0, 0] S128x256.size inb_S256x256_S128x256_0_0
abbrev rc1 : Rect S256x256 := Rect.unit (s := S256x256) ![128, 0] S128x256.size inb_S256x256_S128x256_128_0

abbrev sH0 : Memref sig .tc .vmem S128x256 .bf16 := sM.slice rc0 (fun _ => rfl)
abbrev sH1 : Memref sig .tc .vmem S128x256 .bf16 := sM.slice rc1 (fun _ => rfl)
abbrev rH0 : Memref sig .tc .vmem S128x256 .bf16 := rM.slice rc0 (fun _ => rfl)
abbrev rH1 : Memref sig .tc .vmem S128x256 .bf16 := rM.slice rc1 (fun _ => rfl)

/-- The runtime's barrier semaphore (not scoped to the launch) and the four DMA semaphores of the scratch arrays. -/
abbrev barS : Sem sig := (SemArray.scalar (sig.barrier 0 rfl) : Sems sig S_).sem
abbrev sndS0 : DmaSems sig S_ := (cc0_scratch2.slice (Rect.unit (s := S2) ![0] S1.size inb_S2_S1_0)).squeeze S_ squeezes_S1_S_
abbrev sndS1 : DmaSems sig S_ := (cc0_scratch2.slice (Rect.unit (s := S2) ![1] S1.size inb_S2_S1_1)).squeeze S_ squeezes_S1_S_
abbrev rcvS0 : DmaSems sig S_ := (cc0_scratch3.slice (Rect.unit (s := S2) ![0] S1.size inb_S2_S1_0)).squeeze S_ squeezes_S1_S_
abbrev rcvS1 : DmaSems sig S_ := (cc0_scratch3.slice (Rect.unit (s := S2) ![1] S1.size inb_S2_S1_1)).squeeze S_ squeezes_S1_S_

abbrev barCell (c : Dev nD) : GSem nD τ sig := ((c : Thread nD τ), .reg barS)
abbrev sndCell0 (c : Dev nD) : GSem nD τ sig := ((c : Thread nD τ), .dma sndS0.sem)
abbrev sndCell1 (c : Dev nD) : GSem nD τ sig := ((c : Thread nD τ), .dma sndS1.sem)
abbrev rcvCell0 (c : Dev nD) : GSem nD τ sig := ((c : Thread nD τ), .dma rcvS0.sem)
abbrev rcvCell1 (c : Dev nD) : GSem nD τ sig := ((c : Thread nD τ), .dma rcvS1.sem)

/-- The kernel's own (scoped) semaphores, as the launch indexes them; -/
abbrev osem : Fin 4 → SemLoc sig := fun | 0 => .dma sndS0.sem | 1 => .dma sndS1.sem | 2 => .dma rcvS0.sem | 3 => .dma rcvS1.sem
/-- all five of the exchange's: barrier, the two send cells, the two receive cells. -/
abbrev csem : Fin 5 → SemLoc sig := fun | 0 => .reg barS | 1 => .dma sndS0.sem | 2 => .dma sndS1.sem | 3 => .dma rcvS0.sem | 4 => .dma rcvS1.sem
abbrev kcell (ck : Dev nD × Fin 5) : GSem nD τ sig := ((ck.1 : Thread nD τ), csem ck.2)

/-- A half's credit: what a copy of 128 × 256 bf16 entries pays. -/
abbrev N : ℕ := (rH0 : Memref sig .tc .vmem S128x256 .bf16).view.dmaCredit
theorem N_pos : 0 < N := View.dmaCredit_pos _ (by decide)

/-! ## Contents -/

/-- The `x` staging buffer after the fetch: the device's block as launched. -/
def xstg (c : Dev nD) : (cc0_stg0_0 : Ref sig .tc).ty.Contents (Elt F) :=
  (win0_0.blk (0 : Fin 1)).view.read (Elt F) (m ((c : Thread nD τ).loc main_arg0))

/-- The send buffer after the store: the block rounded to bf16. -/
def sbuf (c : Dev nD) : (cc0_scratch0 : Ref sig .tc).ty.Contents (Elt F) := k0_pay1 (xstg m c)

/-- The result block: the device's rounded block plus its partner's. -/
def outAt (c : Dev nD) : (cc0_stg1_0 : Ref sig .tc).ty.Contents (Elt F) := addf (sbuf m c) (sbuf m (peer c))

/-! ## The schedule -/

/-- What the partner's entry signal hands device `c`: the partner's receive buffer, whole, and that the partner's two
    receive cells stand at round 0. -/
def barPay (c : Dev nD) : sProp 𝕄 :=
  iprop((∃ f, (rM : Memref sig .tc .vmem S256x256 .bf16).view.loc (peer c : Thread nD τ) ↦[(rM : Memref sig .tc .vmem S256x256 .bf16).view.set]{fullShare} f)
    ∗ reached ER (rcvCell0 (peer c)) 0 ∗ reached ER (rcvCell1 (peer c)) 0)
/-- What a landed half hands its owner: those rows of the receive buffer, holding the partner's rounded block. -/
def rcvPay0 (c : Dev nD) : sProp 𝕄 :=
  (rH0 : Memref sig .tc .vmem S128x256 .bf16).view.loc (c : Thread nD τ) ↦[(rH0 : Memref sig .tc .vmem S128x256 .bf16).view.set]{fullShare} sbuf m (peer c)
def rcvPay1 (c : Dev nD) : sProp 𝕄 :=
  (rH1 : Memref sig .tc .vmem S128x256 .bf16).view.loc (c : Thread nD τ) ↦[(rH1 : Memref sig .tc .vmem S128x256 .bf16).view.set]{fullShare} sbuf m (peer c)
/-- What a departed half hands back: the lent share of those rows of the send buffer. -/
def sndPay0 (c : Dev nD) : sProp 𝕄 :=
  (sH0 : Memref sig .tc .vmem S128x256 .bf16).view.loc (c : Thread nD τ) ↦[(sH0 : Memref sig .tc .vmem S128x256 .bf16).view.set]{fullShare.left} sbuf m c
def sndPay1 (c : Dev nD) : sProp 𝕄 :=
  (sH1 : Memref sig .tc .vmem S128x256 .bf16).view.loc (c : Thread nD τ) ↦[(sH1 : Memref sig .tc .vmem S128x256 .bf16).view.set]{fullShare.left} sbuf m c

abbrev IsCell (g : GSem nD τ sig) : Prop :=
  g.1.2 = .tc ∧ (g.2 = .reg barS ∨ g.2 = .dma sndS0.sem ∨ g.2 = .dma sndS1.sem ∨ g.2 = .dma rcvS0.sem ∨ g.2 = .dma rcvS1.sem)

/-- One round, round 0, one duty per cell: a unit on a barrier cell, a half's credit on a send or receive cell. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma rcvS0.sem then rcvPay0 m g.1.1
    else if g.2 = .dma rcvS1.sem then rcvPay1 m g.1.1
    else if g.2 = .dma sndS0.sem then sndPay0 m g.1.1
    else if g.2 = .dma sndS1.sem then sndPay1 m g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1
    else if g.2 = .dma rcvS0.sem then rcvPay0 m g.1.1
    else if g.2 = .dma rcvS1.sem then rcvPay1 m g.1.1
    else if g.2 = .dma sndS0.sem then sndPay0 m g.1.1
    else if g.2 = .dma sndS1.sem then sndPay1 m g.1.1
    else iprop(emp))
  unfold barPay rcvPay0 rcvPay1 sndPay0 sndPay1
  (repeat' split) <;> infer_instance

section Sched
variable (c : Dev nD)

theorem snd0_ne_bar : (SemLoc.dma sndS0.sem : SemLoc sig) ≠ .reg barS := fun h => by cases h
theorem snd1_ne_bar : (SemLoc.dma sndS1.sem : SemLoc sig) ≠ .reg barS := fun h => by cases h
theorem rcv0_ne_bar : (SemLoc.dma rcvS0.sem : SemLoc sig) ≠ .reg barS := fun h => by cases h
theorem rcv1_ne_bar : (SemLoc.dma rcvS1.sem : SemLoc sig) ≠ .reg barS := fun h => by cases h
theorem rcv1_ne_rcv0 : (SemLoc.dma rcvS1.sem : SemLoc sig) ≠ .dma rcvS0.sem := by decide
theorem snd0_ne_rcv0 : (SemLoc.dma sndS0.sem : SemLoc sig) ≠ .dma rcvS0.sem := by decide
theorem snd0_ne_rcv1 : (SemLoc.dma sndS0.sem : SemLoc sig) ≠ .dma rcvS1.sem := by decide
theorem snd1_ne_rcv0 : (SemLoc.dma sndS1.sem : SemLoc sig) ≠ .dma rcvS0.sem := by decide
theorem snd1_ne_rcv1 : (SemLoc.dma sndS1.sem : SemLoc sig) ≠ .dma rcvS1.sem := by decide
theorem snd1_ne_snd0 : (SemLoc.dma sndS1.sem : SemLoc sig) ≠ .dma sndS0.sem := by decide

theorem duties_bar : (xRd (F := F) m).duties (barCell c) 0 = {()} := by dsimp only [xRd]; exact if_pos ⟨rfl, rfl, .inl rfl⟩
theorem duties_snd0 : (xRd (F := F) m).duties (sndCell0 c) 0 = {()} := by dsimp only [xRd]; exact if_pos ⟨rfl, rfl, .inr (.inl rfl)⟩
theorem duties_snd1 : (xRd (F := F) m).duties (sndCell1 c) 0 = {()} := by dsimp only [xRd]; exact if_pos ⟨rfl, rfl, .inr (.inr (.inl rfl))⟩
theorem duties_rcv0 : (xRd (F := F) m).duties (rcvCell0 c) 0 = {()} := by dsimp only [xRd]; exact if_pos ⟨rfl, rfl, .inr (.inr (.inr (.inl rfl)))⟩
theorem duties_rcv1 : (xRd (F := F) m).duties (rcvCell1 c) 0 = {()} := by dsimp only [xRd]; exact if_pos ⟨rfl, rfl, .inr (.inr (.inr (.inr rfl)))⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_snd0 (d : Unit) : (xRd (F := F) m).amount (sndCell0 c) 0 d = N := by dsimp only [xRd]; exact if_neg snd0_ne_bar
theorem amount_snd1 (d : Unit) : (xRd (F := F) m).amount (sndCell1 c) 0 d = N := by dsimp only [xRd]; exact if_neg snd1_ne_bar
theorem amount_rcv0 (d : Unit) : (xRd (F := F) m).amount (rcvCell0 c) 0 d = N := by dsimp only [xRd]; exact if_neg rcv0_ne_bar
theorem amount_rcv1 (d : Unit) : (xRd (F := F) m).amount (rcvCell1 c) 0 d = N := by dsimp only [xRd]; exact if_neg rcv1_ne_bar

theorem expect_bar : (xRd (F := F) m).expect (barCell c) 0 = 1 := by
  unfold Schedule.expect Schedule.amountOf; rw [duties_bar, Finset.sum_singleton, amount_bar]
theorem expect_snd0 : (xRd (F := F) m).expect (sndCell0 c) 0 = N := by
  unfold Schedule.expect Schedule.amountOf; rw [duties_snd0, Finset.sum_singleton, amount_snd0]
theorem expect_snd1 : (xRd (F := F) m).expect (sndCell1 c) 0 = N := by
  unfold Schedule.expect Schedule.amountOf; rw [duties_snd1, Finset.sum_singleton, amount_snd1]
theorem expect_rcv0 : (xRd (F := F) m).expect (rcvCell0 c) 0 = N := by
  unfold Schedule.expect Schedule.amountOf; rw [duties_rcv0, Finset.sum_singleton, amount_rcv0]
theorem expect_rcv1 : (xRd (F := F) m).expect (rcvCell1 c) 0 = N := by
  unfold Schedule.expect Schedule.amountOf; rw [duties_rcv1, Finset.sum_singleton, amount_rcv1]

theorem payload_bar (d : Unit) : (xRd (F := F) m).payload (barCell c) 0 d = barPay c := by dsimp only [xRd]; rw [if_pos rfl]
theorem payload_rcv0 (d : Unit) : (xRd (F := F) m).payload (rcvCell0 c) 0 d = rcvPay0 m c := by
  dsimp only [xRd]; rw [if_neg rcv0_ne_bar, if_pos rfl]
theorem payload_rcv1 (d : Unit) : (xRd (F := F) m).payload (rcvCell1 c) 0 d = rcvPay1 m c := by
  dsimp only [xRd]; rw [if_neg rcv1_ne_bar, if_neg rcv1_ne_rcv0, if_pos rfl]
theorem payload_snd0 (d : Unit) : (xRd (F := F) m).payload (sndCell0 c) 0 d = sndPay0 m c := by
  dsimp only [xRd]; rw [if_neg snd0_ne_bar, if_neg snd0_ne_rcv0, if_neg snd0_ne_rcv1, if_pos rfl]
theorem payload_snd1 (d : Unit) : (xRd (F := F) m).payload (sndCell1 c) 0 d = sndPay1 m c := by
  dsimp only [xRd]; rw [if_neg snd1_ne_bar, if_neg snd1_ne_rcv0, if_neg snd1_ne_rcv1, if_neg snd1_ne_snd0, if_pos rfl]

/-- The rest of a cell's round with no duty taken is its one payload. -/
theorem rest_bar : bigSep ((xRd (F := F) m).duties (barCell c) 0 \ ∅) (fun d => (xRd (F := F) m).payload (barCell c) 0 d) = barPay c := by
  rw [Finset.sdiff_empty, duties_bar, bigSep_singleton, payload_bar]
theorem rest_snd0 : bigSep ((xRd (F := F) m).duties (sndCell0 c) 0 \ ∅) (fun d => (xRd (F := F) m).payload (sndCell0 c) 0 d) = sndPay0 m c := by
  rw [Finset.sdiff_empty, duties_snd0, bigSep_singleton, payload_snd0]
theorem rest_snd1 : bigSep ((xRd (F := F) m).duties (sndCell1 c) 0 \ ∅) (fun d => (xRd (F := F) m).payload (sndCell1 c) 0 d) = sndPay1 m c := by
  rw [Finset.sdiff_empty, duties_snd1, bigSep_singleton, payload_snd1]
theorem rest_rcv0 : bigSep ((xRd (F := F) m).duties (rcvCell0 c) 0 \ ∅) (fun d => (xRd (F := F) m).payload (rcvCell0 c) 0 d) = rcvPay0 m c := by
  rw [Finset.sdiff_empty, duties_rcv0, bigSep_singleton, payload_rcv0]
theorem rest_rcv1 : bigSep ((xRd (F := F) m).duties (rcvCell1 c) 0 \ ∅) (fun d => (xRd (F := F) m).payload (rcvCell1 c) 0 d) = rcvPay1 m c := by
  rw [Finset.sdiff_empty, duties_rcv1, bigSep_singleton, payload_rcv1]

end Sched

/-! ## What each device owes at launch; the levels -/

/-- Device `c` owes its partner's two receive cells a half's credit each and its partner's barrier cell one unit —
    summed so that the entry signal peels the last summand, then the copy of the first half, then of the second. -/
def O₂ (c : Dev nD) : CellTallies nD τ sig Unit := tallyAt (rcvCell1 (peer c)) () N
def O₁ (c : Dev nD) : CellTallies nD τ sig Unit := O₂ c + tallyAt (rcvCell0 (peer c)) () N
def O₀ (c : Dev nD) : CellTallies nD τ sig Unit := O₁ c + tallyAt (barCell (peer c)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if g.2 = .dma rcvS0.sem ∨ g.2 = .dma rcvS1.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcvCell1 (peer c) ∨ g = rcvCell0 (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCell1 (peer c) ∨ g = rcvCell0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₁_pos h with h1 | h1
    · exact .inl h1
    · exact .inr (.inl h1)

theorem lv_rcv0 (c : Dev nD) (u : Unit) : lv (rcvCell0 c) u = 2 := by
  dsimp only [lv]; rw [if_neg rcv0_ne_bar, if_pos (.inl rfl)]
theorem lv_rcv1 (c : Dev nD) (u : Unit) : lv (rcvCell1 c) u = 2 := by
  dsimp only [lv]; rw [if_neg rcv1_ne_bar, if_pos (.inr rfl)]
theorem lv_bar (c : Dev nD) (u : Unit) : lv (barCell c) u = 1 := by dsimp only [lv]; rw [if_pos rfl]

/-- A wait on a staging semaphore (level 0), at the start (owing `O₀`) or at the end (owing nothing). -/
theorem mayWait_stage (c : Dev nD) (q : DmaSem sig) (hq0 : SemLoc.dma q ≠ .dma rcvS0.sem) (hq1 : SemLoc.dma q ≠ .dma rcvS1.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_rcv1]; decide
        · rw [lv_rcv0]; decide
        · rw [lv_bar]; decide)
  · rw [MayWait_zero]; iintro -; iempintro

/-- At its barrier wait a device owes its partner's two receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_rcv1]; decide
      · rw [lv_rcv0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, and
    its partner's barrier cell (its signal) and two receive cells (its copies). -/
def invs (K : Dev nD × Fin 5 → ℕ) (c : Dev nD) : sProp 𝕄 :=
  iprop(cellInv ER (xRd m) (K (c, 0)) (barCell c) ∗ cellInv ER (xRd m) (K (c, 1)) (sndCell0 c) ∗ cellInv ER (xRd m) (K (c, 2)) (sndCell1 c)
    ∗ cellInv ER (xRd m) (K (c, 3)) (rcvCell0 c) ∗ cellInv ER (xRd m) (K (c, 4)) (rcvCell1 c)
    ∗ cellInv ER (xRd m) (K (peer c, 0)) (barCell (peer c))
    ∗ cellInv ER (xRd m) (K (peer c, 3)) (rcvCell0 (peer c)) ∗ cellInv ER (xRd m) (K (peer c, 4)) (rcvCell1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own; the five duty tokens it pays with — its partner's barrier duty,
    its partner's two receive duties, its own two send duties. -/
def ghost (K : Dev nD × Fin 5 → ℕ) (c : Dev nD) : sProp 𝕄 :=
  iprop(invs m K c
    ∗ atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0
    ∗ reached ER (barCell (peer c)) 0 ∗ reached ER (rcvCell0 (peer c)) 0 ∗ reached ER (rcvCell1 (peer c)) 0
    ∗ reached ER (sndCell0 c) 0 ∗ reached ER (sndCell1 c) 0 ∗ reached ER (rcvCell0 c) 0 ∗ reached ER (rcvCell1 c) 0
    ∗ dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())

/-- What device `c`'s body starts from: that at some names, its three credit tokens (its barrier's unit, its two
    receive cells' credits) and the level facts. -/
def start (c : Dev nD) : sProp 𝕄 :=
  iprop((∃ K, ghost m K c) ∗ cred (tallyAt (barCell c) () 1) ∗ cred (tallyAt (rcvCell0 c) () N) ∗ cred (tallyAt (rcvCell1 c) () N) ∗ levAts L lv)

/-- The two scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scr c)
/-- After the point: the scratch buffers back whole, the four own cells at zero, closed. -/
def Φ₁ (c : Dev nD) : sProp 𝕄 :=
  iprop(scr (F := F) c ∗ semVal (sndCell0 c) 0 ∗ semVal (sndCell1 c) 0 ∗ semVal (rcvCell0 c) 0 ∗ semVal (rcvCell1 c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, with the launch's names opened. -/
def bodyPre (K : Dev nD × Fin 5 → ℕ) (c : Dev nD) : sProp 𝕄 :=
  iprop((ghost m K c ∗ cred (tallyAt (barCell c) () 1) ∗ cred (tallyAt (rcvCell0 c) () N) ∗ cred (tallyAt (rcvCell1 c) () N) ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

end Cert.Kernel.Exch

end
-- ==== Proof.Kernel.Halves.lean ====
/-
  Views of a 256 × 256 buffer cut into its rows 0–127 and 128–255. The two row ranges are disjoint and cover the buffer;
  the half slices of the send and receive buffers sit exactly on them; a load of a half touches only that half; a half of
  one buffer written with the same half read off another buffer of the same type holds the source's entries on those
  rows; and storing, half by half, the entrywise sum of the halves of two contents leaves their entrywise sum on the whole
  buffer.
-/
import proofs.«900714_g7700000000000715_dist_ar_v7x_xyz2x2x4_y_m256_n256_bf16_1_alg».proof.Proof.Kernel.Cells

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two row ranges -/

/-- An index lies in the upper half exactly when its row is below 128; -/
theorem mem_rc0 (i : S256x256.Idx) : i ∈ rc0.set ↔ (i 0).val < 128 := by
  rw [Rect.mem_set_unit, Fin.forall_fin_two]
  have h1 : (i 1).val < 256 := (i 1).isLt
  show ((0 ≤ (i 0).val ∧ (i 0).val < 0 + 128) ∧ (0 ≤ (i 1).val ∧ (i 1).val < 0 + 256)) ↔ _
  omega

/-- in the lower half exactly when it is not. -/
theorem mem_rc1 (i : S256x256.Idx) : i ∈ rc1.set ↔ 128 ≤ (i 0).val := by
  rw [Rect.mem_set_unit, Fin.forall_fin_two]
  have h0 : (i 0).val < 256 := (i 0).isLt
  have h1 : (i 1).val < 256 := (i 1).isLt
  show ((128 ≤ (i 0).val ∧ (i 0).val < 128 + 128) ∧ (0 ≤ (i 1).val ∧ (i 1).val < 0 + 256)) ↔ _
  omega

/-- Rows 0–127 and rows 128–255 share no entry … -/
theorem rc_disjoint : Disjoint rc0.set rc1.set :=
  Finset.disjoint_left.mpr fun i h0 h1 => by
    have := (mem_rc0 i).mp h0; have := (mem_rc1 i).mp h1; omega

/-- … and between them hold every entry. -/
theorem rc_cover : rc0.set ∪ rc1.set = Finset.univ := by
  ext i
  simp only [Finset.mem_union, Finset.mem_univ, iff_true, mem_rc0, mem_rc1]
  omega

/-! ## The half slices sit on the row ranges -/

theorem set_sH0 : (sH0 : Memref sig .tc .vmem S128x256 .bf16).view.set = rc0.set := View.set_slice_whole cc0_scratch0 rc0
theorem set_sH1 : (sH1 : Memref sig .tc .vmem S128x256 .bf16).view.set = rc1.set := View.set_slice_whole cc0_scratch0 rc1
theorem set_rH0 : (rH0 : Memref sig .tc .vmem S128x256 .bf16).view.set = rc0.set := View.set_slice_whole cc0_scratch1 rc0
theorem set_rH1 : (rH1 : Memref sig .tc .vmem S128x256 .bf16).view.set = rc1.set := View.set_slice_whole cc0_scratch1 rc1

/-! ## A load of a half touches only that half -/

/-- Through a whole buffer, the entries under a set of indices are those indices. -/
theorem setOn_whole (b : Ref sig .tc) (M : Finset b.ty.shape.Idx) : (View.whole b : View sig .tc _ _ _).setOn M = M :=
  Finset.map_refl

theorem load0_sub : (rM : Memref sig .tc .vmem S256x256 .bf16).view.setOn rc0.toLoadRect.set ⊆ (rH0 : Memref sig .tc .vmem S128x256 .bf16).view.set := by
  rw [set_rH0]; exact (setOn_whole cc0_scratch1 _).subset
theorem load1_sub : (rM : Memref sig .tc .vmem S256x256 .bf16).view.setOn rc1.toLoadRect.set ⊆ (rH1 : Memref sig .tc .vmem S128x256 .bf16).view.set := by
  rw [set_rH1]; exact (setOn_whole cc0_scratch1 _).subset
theorem sload0_sub : (sM : Memref sig .tc .vmem S256x256 .bf16).view.setOn rc0.toLoadRect.set ⊆ (sH0 : Memref sig .tc .vmem S128x256 .bf16).view.set := by
  rw [set_sH0]; exact (setOn_whole cc0_scratch0 _).subset
theorem sload1_sub : (sM : Memref sig .tc .vmem S256x256 .bf16).view.setOn rc1.toLoadRect.set ⊆ (sH1 : Memref sig .tc .vmem S128x256 .bf16).view.set := by
  rw [set_sH1]; exact (setOn_whole cc0_scratch0 _).subset

/-! ## A landed half reads as its source -/

/-- The upper half of the receive buffer, written with the upper half read off a send buffer's contents `fs`, holds
    `fs` on those rows: both halves are the same rows of buffers of one type. -/
theorem land0 (fd : (cc0_scratch1 : Ref sig .tc).ty.Contents (Elt F)) (fs : (cc0_scratch0 : Ref sig .tc).ty.Contents (Elt F)) :
    ∀ i ∈ (rH0 : Memref sig .tc .vmem S128x256 .bf16).view.set,
      (rH0 : Memref sig .tc .vmem S128x256 .bf16).view.write (Elt F) fd ((sH0 : Memref sig .tc .vmem S128x256 .bf16).view.read (Elt F) fs) Finset.univ i = fs i := by
  intro i hi
  obtain ⟨y, rfl⟩ := View.exists_emb_of_mem_set _ hi
  rw [View.write_emb_of_mem _ _ (Finset.mem_univ y)]
  rfl

/-- The lower half likewise. -/
theorem land1 (fd : (cc0_scratch1 : Ref sig .tc).ty.Contents (Elt F)) (fs : (cc0_scratch0 : Ref sig .tc).ty.Contents (Elt F)) :
    ∀ i ∈ (rH1 : Memref sig .tc .vmem S128x256 .bf16).view.set,
      (rH1 : Memref sig .tc .vmem S128x256 .bf16).view.write (Elt F) fd ((sH1 : Memref sig .tc .vmem S128x256 .bf16).view.read (Elt F) fs) Finset.univ i = fs i := by
  intro i hi
  obtain ⟨y, rfl⟩ := View.exists_emb_of_mem_set _ hi
  rw [View.write_emb_of_mem _ _ (Finset.mem_univ y)]
  rfl

/-! ## The two half stores make the whole-block sum -/

/-- A store through a row range of a whole buffer, at an entry of the range: the payload there. -/
theorem write_half_emb (b : Ref sig .tc) (r : Rect b.ty.shape) (f : b.ty.Contents (Elt F)) (w : r.shape.Idx → Elt F b.ty.elt)
    (x : r.shape.Idx) : ((Memref.whole b).access r : View sig .tc _ _ _).write (Elt F) f w Finset.univ (r.emb x) = w x := by
  have h := View.write_emb_of_mem (v := ((Memref.whole b).access r : View sig .tc _ _ _)) (Val := Elt F) f w
    (M := Finset.univ) (x := x) (Finset.mem_univ _)
  exact h

/-- Off the range the buffer keeps what it held. -/
theorem write_half_off (b : Ref sig .tc) (r : Rect b.ty.shape) (f : b.ty.Contents (Elt F)) (w : r.shape.Idx → Elt F b.ty.elt)
    (i : b.ty.shape.Idx) (hi : i ∉ r.set) : ((Memref.whole b).access r : View sig .tc _ _ _).write (Elt F) f w Finset.univ i = f i :=
  View.write_of_not_mem _ _ _ (by rw [View.setOn_univ, View.set_slice_whole]; exact hi)

/-- The sum of the upper halves stored on the upper rows, then the sum of the lower halves on the lower rows: the sum,
    entry by entry, on the whole buffer, whatever it held before. -/
theorem stores_cover (f0 a b : (cc0_stg1_0 : Ref sig .tc).ty.Contents (Elt F)) :
    ((oM : Memref sig .tc .vmem S256x256 .bf16).access rc1 : View sig .tc _ _ _).write (Elt F)
      (((oM : Memref sig .tc .vmem S256x256 .bf16).access rc0 : View sig .tc _ _ _).write (Elt F) f0
        (k0_pay2 ((sM : Memref sig .tc .vmem S256x256 .bf16).view.readAt (Elt F) rc0.toLoadRect a) ((rM : Memref sig .tc .vmem S256x256 .bf16).view.readAt (Elt F) rc0.toLoadRect b)) Finset.univ)
      (k0_pay3 ((sM : Memref sig .tc .vmem S256x256 .bf16).view.readAt (Elt F) rc1.toLoadRect a) ((rM : Memref sig .tc .vmem S256x256 .bf16).view.readAt (Elt F) rc1.toLoadRect b)) Finset.univ
    = addf a b := by
  funext (i : S256x256.Idx)
  by_cases h1 : i ∈ rc1.set
  · obtain ⟨x, rfl⟩ := rc1.toLoadRect.exists_idx_of_mem h1
    exact (write_half_emb cc0_stg1_0 rc1 _ _ x).trans rfl
  · have h0 : i ∈ rc0.set := by
      have hu : i ∈ rc0.set ∪ rc1.set := by rw [rc_cover]; exact Finset.mem_univ i
      exact (Finset.mem_union.mp hu).resolve_right h1
    refine (write_half_off cc0_stg1_0 rc1 _ _ i h1).trans ?_
    obtain ⟨x, rfl⟩ := rc0.toLoadRect.exists_idx_of_mem h0
    exact (write_half_emb cc0_stg1_0 rc0 _ _ x).trans rfl

/-! ## The whole block -/

theorem zero_offsets : (![0, 0] : Fin 2 → Nat) = fun _ => 0 := funext fun a => by fin_cases a <;> rfl

/-- A load of the whole staging block reads its contents; -/
theorem read_xW (f : (cc0_stg0_0 : Ref sig .tc).ty.Contents (Elt F)) :
    (xM : Memref sig .tc .vmem S256x256 .f32).view.readAt (Elt F) rcW.toLoadRect f = f :=
  Memref.readAt_unit_zero (Elt F) cc0_stg0_0 zero_offsets _ f

/-- a store over the whole send buffer leaves its payload. -/
theorem write_sW (f w : (cc0_scratch0 : Ref sig .tc).ty.Contents (Elt F)) :
    ((sM : Memref sig .tc .vmem S256x256 .bf16).access rcW : View sig .tc _ _ _).write (Elt F) f w Finset.univ = w :=
  Memref.write_access_unit_zero_univ (Elt F) cc0_scratch0 zero_offsets _ f w

/-- info: 'Cert.Kernel.Exch.stores_cover' depends on axioms: [propext, Classical.choice, Quot.sound] -/
#guard_msgs in #print axioms stores_cover

end Cert.Kernel.Exch

end
-- ==== Proof.Kernel.Body.lean ====
/-
  One device's body, stepped once at a symbolic device `c` with partner `peer c`.
  The entry signal pays the partner's barrier duty and hands over this device's receive buffer. The block is rounded
  into the send buffer. The wait on the device's own barrier cell brings the partner's receive buffer. The send buffer
  is then cut twice: by share — one share is lent to the two copies and comes back with their departures, the other is
  kept, because each half is read again while its copy is still pending — and by halves of rows; the partner's
  receive buffer is cut by halves. Each copy pays the device's send duty and the partner's receive duty of its half; a
  landed half holds the sender's rounded block on its rows. After the wait for a half's landing the two halves are
  added and stored; the two stores cover the result block, which is therefore the whole-block sum of the device's
  rounded block and its partner's. After the two waits for the departures the four own cells are closed and the two
  scratch buffers are whole again.
-/
import proofs.«900714_g7700000000000715_dist_ar_v7x_xyz2x2x4_y_m256_n256_bf16_1_alg».proof.Proof.Kernel.Halves

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 5 → ℕ)

/-- A whole buffer's points-to, stated through its view. -/
theorem pts_x (c : Dev nD) (q : PosShare TreeShare) (f : Buf (Elt F) ((c : Thread nD τ).loc cc0_stg0_0)) :
    ((xM : Memref sig .tc .vmem S256x256 .f32).view.loc (c : Thread nD τ) ↦[(xM : Memref sig .tc .vmem S256x256 .f32).view.set]{q} f : sProp 𝕄)
      = (((c : Thread nD τ).loc cc0_stg0_0) ↦{q} f) := by
  rw [View.set_whole]
theorem pts_o (c : Dev nD) (q : PosShare TreeShare) (f : Buf (Elt F) ((c : Thread nD τ).loc cc0_stg1_0)) :
    ((oM : Memref sig .tc .vmem S256x256 .bf16).view.loc (c : Thread nD τ) ↦[(oM : Memref sig .tc .vmem S256x256 .bf16).view.set]{q} f : sProp 𝕄)
      = (((c : Thread nD τ).loc cc0_stg1_0) ↦{q} f) := by
  rw [View.set_whole]
theorem pts_s (c : Dev nD) (q : PosShare TreeShare) (f : Buf (Elt F) ((c : Thread nD τ).loc cc0_scratch0)) :
    ((sM : Memref sig .tc .vmem S256x256 .bf16).view.loc (c : Thread nD τ) ↦[(sM : Memref sig .tc .vmem S256x256 .bf16).view.set]{q} f : sProp 𝕄)
      = (((c : Thread nD τ).loc cc0_scratch0) ↦{q} f) := by
  rw [View.set_whole]
theorem pts_r (c : Dev nD) (q : PosShare TreeShare) (f : Buf (Elt F) ((c : Thread nD τ).loc cc0_scratch1)) :
    ((rM : Memref sig .tc .vmem S256x256 .bf16).view.loc (c : Thread nD τ) ↦[(rM : Memref sig .tc .vmem S256x256 .bf16).view.set]{q} f : sProp 𝕄)
      = (((c : Thread nD τ).loc cc0_scratch1) ↦{q} f) := by
  rw [View.set_whole]

/-- The partner's barrier payload, with the partner's partner resolved: what device `c` hands over at its entry signal. -/
theorem payload_bar_peer (c : Dev nD) (d : Unit) : (xRd (F := F) m).payload (barCell (peer c)) 0 d
    = iprop((∃ f, (rM : Memref sig .tc .vmem S256x256 .bf16).view.loc (c : Thread nD τ) ↦[(rM : Memref sig .tc .vmem S256x256 .bf16).view.set]{fullShare} f)
      ∗ reached ER (rcvCell0 c) 0 ∗ reached ER (rcvCell1 c) 0) := by
  rw [payload_bar]; unfold barPay; rw [peer_peer]

theorem barPay_eq (c : Dev nD) : barPay (F := F) c = iprop((∃ f, (rM : Memref sig .tc .vmem S256x256 .bf16).view.loc (peer c : Thread nD τ) ↦[(rM : Memref sig .tc .vmem S256x256 .bf16).view.set]{fullShare} f)
    ∗ reached ER (rcvCell0 (peer c)) 0 ∗ reached ER (rcvCell1 (peer c)) 0) := rfl

/-- A whole send buffer, at any share, is its two halves of rows. -/
theorem cut_s (c : Dev nD) (q : PosShare TreeShare) (f : Buf (Elt F) ((sM : Memref sig .tc .vmem S256x256 .bf16).view.loc (c : Thread nD τ))) :
    ((sM : Memref sig .tc .vmem S256x256 .bf16).view.loc (c : Thread nD τ) ↦[(sM : Memref sig .tc .vmem S256x256 .bf16).view.set]{q} f : sProp 𝕄)
      ⊣⊢ iprop(((sH0 : Memref sig .tc .vmem S128x256 .bf16).view.loc (c : Thread nD τ) ↦[(sH0 : Memref sig .tc .vmem S128x256 .bf16).view.set]{q} f)
          ∗ ((sH1 : Memref sig .tc .vmem S128x256 .bf16).view.loc (c : Thread nD τ) ↦[(sH1 : Memref sig .tc .vmem S128x256 .bf16).view.set]{q} f)) := by
  have e : (sM : Memref sig .tc .vmem S256x256 .bf16).view.set
      = (sH0 : Memref sig .tc .vmem S128x256 .bf16).view.set ∪ (sH1 : Memref sig .tc .vmem S128x256 .bf16).view.set := by
    rw [View.set_whole, set_sH0, set_sH1, rc_cover]
  rw [e]
  exact pointsTo_union (by rw [set_sH0, set_sH1]; exact rc_disjoint)

/-- A whole receive buffer is its two halves of rows. -/
theorem cut_r (c : Dev nD) (q : PosShare TreeShare) (f : Buf (Elt F) ((rM : Memref sig .tc .vmem S256x256 .bf16).view.loc (c : Thread nD τ))) :
    ((rM : Memref sig .tc .vmem S256x256 .bf16).view.loc (c : Thread nD τ) ↦[(rM : Memref sig .tc .vmem S256x256 .bf16).view.set]{q} f : sProp 𝕄)
      ⊣⊢ iprop(((rH0 : Memref sig .tc .vmem S128x256 .bf16).view.loc (c : Thread nD τ) ↦[(rH0 : Memref sig .tc .vmem S128x256 .bf16).view.set]{q} f)
          ∗ ((rH1 : Memref sig .tc .vmem S128x256 .bf16).view.loc (c : Thread nD τ) ↦[(rH1 : Memref sig .tc .vmem S128x256 .bf16).view.set]{q} f)) := by
  have e : (rM : Memref sig .tc .vmem S256x256 .bf16).view.set
      = (rH0 : Memref sig .tc .vmem S128x256 .bf16).view.set ∪ (rH1 : Memref sig .tc .vmem S128x256 .bf16).view.set := by
    rw [View.set_whole, set_rH0, set_rH1, rc_cover]
  rw [e]
  exact pointsTo_union (by rw [set_rH0, set_rH1]; exact rc_disjoint)

theorem sndPay0_eq (c : Dev nD) : sndPay0 (F := F) m c = ((sH0 : Memref sig .tc .vmem S128x256 .bf16).view.loc (c : Thread nD τ) ↦[(sH0 : Memref sig .tc .vmem S128x256 .bf16).view.set]{fullShare.left} sbuf m c) := rfl
theorem sndPay1_eq (c : Dev nD) : sndPay1 (F := F) m c = ((sH1 : Memref sig .tc .vmem S128x256 .bf16).view.loc (c : Thread nD τ) ↦[(sH1 : Memref sig .tc .vmem S128x256 .bf16).view.set]{fullShare.left} sbuf m c) := rfl
theorem rcvPay0_eq (c : Dev nD) : rcvPay0 (F := F) m c = ((rH0 : Memref sig .tc .vmem S128x256 .bf16).view.loc (c : Thread nD τ) ↦[(rH0 : Memref sig .tc .vmem S128x256 .bf16).view.set]{fullShare} sbuf m (peer c)) := rfl
theorem rcvPay1_eq (c : Dev nD) : rcvPay1 (F := F) m c = ((rH1 : Memref sig .tc .vmem S128x256 .bf16).view.loc (c : Thread nD τ) ↦[(rH1 : Memref sig .tc .vmem S128x256 .bf16).view.set]{fullShare} sbuf m (peer c)) := rfl

/-- The copy of half 0 to the partner `n = peer c` (substituted, not rewritten): the lent share of the source half comes
    back with the departure, the partner's half arrives holding this device's rounded block on those rows. -/
theorem wp_send0 (c n : Dev nD) (hn : n = peer c)
    {hsc : (rH0 : Memref sig (Dev.tc n : Thread nD τ).2.kind .vmem S128x256 .bf16).view.ref.isScScratch = false}
    {hsrc : (sH0 : Memref sig .tc .vmem S128x256 .bf16).view.WordExact} {hdst : (rH0 : Memref sig .tc .vmem S128x256 .bf16).view.WordExact}
    {hsem : DmaTarget.Typed .vmem (.dma rcvS0.sem) (.remote (Dev.tc n : Thread nD τ) (rH0 : Memref sig .tc .vmem S128x256 .bf16) (.dma sndS0.sem) hsc)}
    {α : Type} {Q : α → sProp 𝕄} {k : PUnit → Prog (TpuEff nD τ sig (Elt F) Λ₀ .tc) α}
    (fn : Buf (Elt F) ((rH0 : Memref sig .tc .vmem S128x256 .bf16).view.loc (peer c : Thread nD τ)))
    (O₀ O : CellTallies nD τ sig Unit) (hO : O₀ = O + tallyAt (rcvCell0 (peer c)) () N) (W : Waits sig Unit) :
    iprop(cellInv ER (xRd m) (K (c, 1)) (sndCell0 c) ∗ cellInv ER (xRd m) (K (peer c, 3)) (rcvCell0 (peer c))
        ∗ ((sH0 : Memref sig .tc .vmem S128x256 .bf16).view.loc (c : Thread nD τ) ↦[(sH0 : Memref sig .tc .vmem S128x256 .bf16).view.set]{fullShare.left} sbuf m c)
        ∗ ((rH0 : Memref sig .tc .vmem S128x256 .bf16).view.loc (peer c : Thread nD τ) ↦[(rH0 : Memref sig .tc .vmem S128x256 .bf16).view.set]{fullShare} fn)
        ∗ owes (c : Thread nD τ) O₀ W
        ∗ dutyTok ER (sndCell0 c) 0 () ∗ reached ER (sndCell0 c) 0
        ∗ dutyTok ER (rcvCell0 (peer c)) 0 () ∗ reached ER (rcvCell0 (peer c)) 0)
      ⊢ iprop(((cred (tallyAt (sndCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH0 (.remote (Dev.tc n : Thread nD τ) rH0 (.dma sndS0.sem) hsc) (.dma rcvS0.sem) hsrc hdst hsem) k) Q) := by
  subst hn
  exact Rounds.wp_send_pointsTo 𝒱₀ ER (xRd m) (c : Thread nD τ) none (κ₁ := K (c, 1)) (κ₂ := K (peer c, 3))
    (r₁ := 0) (r₂ := 0) (d₁ := ()) (d₂ := ()) (fd := fn)
    (by rw [duties_snd0]; exact Finset.mem_singleton_self _) (by rw [duties_rcv0]; exact Finset.mem_singleton_self _)
    () () N rfl (amount_snd0 m c ()) (amount_rcv0 m (peer c) ()) O hO (W := W)
    (by rw [payload_snd0]; exact BI.Entails.refl _)
    (by rw [payload_rcv0]; unfold rcvPay0; rw [peer_peer]; exact Entails.of_eq (pointsTo_congr (land0 fn (sbuf m c))))

/-- The copy of half 1 to the partner `n = peer c` (substituted, not rewritten): the lent share of the source half comes
    back with the departure, the partner's half arrives holding this device's rounded block on those rows. -/
theorem wp_send1 (c n : Dev nD) (hn : n = peer c)
    {hsc : (rH1 : Memref sig (Dev.tc n : Thread nD τ).2.kind .vmem S128x256 .bf16).view.ref.isScScratch = false}
    {hsrc : (sH1 : Memref sig .tc .vmem S128x256 .bf16).view.WordExact} {hdst : (rH1 : Memref sig .tc .vmem S128x256 .bf16).view.WordExact}
    {hsem : DmaTarget.Typed .vmem (.dma rcvS1.sem) (.remote (Dev.tc n : Thread nD τ) (rH1 : Memref sig .tc .vmem S128x256 .bf16) (.dma sndS1.sem) hsc)}
    {α : Type} {Q : α → sProp 𝕄} {k : PUnit → Prog (TpuEff nD τ sig (Elt F) Λ₀ .tc) α}
    (fn : Buf (Elt F) ((rH1 : Memref sig .tc .vmem S128x256 .bf16).view.loc (peer c : Thread nD τ)))
    (O₀ O : CellTallies nD τ sig Unit) (hO : O₀ = O + tallyAt (rcvCell1 (peer c)) () N) (W : Waits sig Unit) :
    iprop(cellInv ER (xRd m) (K (c, 2)) (sndCell1 c) ∗ cellInv ER (xRd m) (K (peer c, 4)) (rcvCell1 (peer c))
        ∗ ((sH1 : Memref sig .tc .vmem S128x256 .bf16).view.loc (c : Thread nD τ) ↦[(sH1 : Memref sig .tc .vmem S128x256 .bf16).view.set]{fullShare.left} sbuf m c)
        ∗ ((rH1 : Memref sig .tc .vmem S128x256 .bf16).view.loc (peer c : Thread nD τ) ↦[(rH1 : Memref sig .tc .vmem S128x256 .bf16).view.set]{fullShare} fn)
        ∗ owes (c : Thread nD τ) O₀ W
        ∗ dutyTok ER (sndCell1 c) 0 () ∗ reached ER (sndCell1 c) 0
        ∗ dutyTok ER (rcvCell1 (peer c)) 0 () ∗ reached ER (rcvCell1 (peer c)) 0)
      ⊢ iprop(((cred (tallyAt (sndCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH1 (.remote (Dev.tc n : Thread nD τ) rH1 (.dma sndS1.sem) hsc) (.dma rcvS1.sem) hsrc hdst hsem) k) Q) := by
  subst hn
  exact Rounds.wp_send_pointsTo 𝒱₀ ER (xRd m) (c : Thread nD τ) none (κ₁ := K (c, 2)) (κ₂ := K (peer c, 4))
    (r₁ := 0) (r₂ := 0) (d₁ := ()) (d₂ := ()) (fd := fn)
    (by rw [duties_snd1]; exact Finset.mem_singleton_self _) (by rw [duties_rcv1]; exact Finset.mem_singleton_self _)
    () () N rfl (amount_snd1 m c ()) (amount_rcv1 m (peer c) ()) O hO (W := W)
    (by rw [payload_snd1]; exact BI.Entails.refl _)
    (by rw [payload_rcv1]; unfold rcvPay1; rw [peer_peer]; exact Entails.of_eq (pointsTo_congr (land1 fn (sbuf m c))))

attribute [local sl_canon] dev1_eq dev2_eq dev3_eq
attribute [local sl_rounds] duties_bar duties_snd0 duties_snd1 duties_rcv0 duties_rcv1 amount_bar amount_snd0 amount_snd1 amount_rcv0 amount_rcv1
  expect_bar expect_snd0 expect_snd1 expect_rcv0 expect_rcv1 payload_bar payload_rcv0 payload_rcv1 payload_snd0 payload_snd1 barPay_eq sndPay0_eq sndPay1_eq rcvPay0_eq rcvPay1_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  unfold bodyPre ghost invs scr
  iintro ⟨⟨⟨⟨⟨#HIbar, #HIs0, #HIs1, #HIr0, #HIr1, #HIbarP, #HIr0P, #HIr1P⟩, HatB, HatS0, HatS1, HatR0, HatR1,
      #HrBP, #HrR0P, #HrR1P, #HrS0, #HrS1, #HrR0, #HrR1, HtBP, HtR0P, HtR1P, HtS0, HtS1⟩, HcB, HcR0, HcR1, #Hlev, ⟨%fs, Hsb⟩, ⟨%fr, Hrb⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂
  ihave Hx := (Entails.of_eq (pts_x c fullShare _).symm) $$ Hx
  ihave Hout := (Entails.of_eq (pts_o c fullShare _).symm) $$ Hout
  ihave Hsb := (Entails.of_eq (pts_s c fullShare _).symm) $$ Hsb
  ihave Hrb := (Entails.of_eq (pts_r c fullShare _).symm) $$ Hrb
  have hmw : (levAts L lv : sProp 𝕄) ⊢ MayWait (c : Thread nD τ) (.reg barS) () (tallyAt (rcvCell1 (peer c)) () N + tallyAt (rcvCell0 (peer c)) () N) :=
    mayWait_bar c
  sl_exec (disch := simp only [dev1_eq, dev2_eq, dev3_eq])
  -- the entry signal to the partner: its barrier duty, with this device's receive buffer and its receive cells' marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (rcvCell1 (peer c)) () N + tallyAt (rcvCell0 (peer c)) () N) rfl) $$ [HO HtBP Hrb]
  · isplitr; · iexact HIbarP
    isplitl [HO]; · iexact HO
    isplitl [HtBP]; · iexact HtBP
    isplitl [Hrb]
    · rw [payload_bar_peer]
      isplitl [Hrb]; · iexists fr; iexact Hrb
      isplitr; · iexact HrR0
      iexact HrR1
    · iexact HrBP
  iintro HO
  sl_exec (disch := simp only [dev1_eq, dev2_eq, dev3_eq])
  -- the send buffer now holds the rounded block; it is cut by share (one share lent to the copies, one kept for the
  -- reads) and by halves of rows, the partner's receive buffer by halves
  have hsb : (sM : Memref sig .tc .vmem S256x256 .bf16).view.writes (Elt F) fs
      [⟨rcW, k0_pay1 ((xM : Memref sig .tc .vmem S256x256 .f32).view.readAt (Elt F) rcW.toLoadRect (xstg m c))⟩] = sbuf m c := by
    rw [read_xW]; exact write_sW _ _
  rw [hsb]
  ihave Hsb2 := (pointsTo_share (PosShare.mem_left_op_right fullShare)).1 $$ Hsb
  icases Hsb2 with ⟨HsL, HsR⟩
  ihave HsL2 := (cut_s c fullShare.left (sbuf m c)).1 $$ HsL
  icases HsL2 with ⟨HsL0, HsL1⟩
  ihave Hp2 := (cut_r (peer c) fullShare HatB_pay1_v).1 $$ HatB_pay1
  icases Hp2 with ⟨Hp0, Hp1⟩
  -- the two copies, half by half
  iapply (wp_send0 m K c _ (dev2_eq c) HatB_pay1_v _ (tallyAt (rcvCell1 (peer c)) () N) rfl _) $$ [HsL0 Hp0 HO HtS0 HtR0P]
  · isplitr; · iexact HIs0
    isplitr; · iexact HIr0P
    isplitl [HsL0]; · iexact HsL0
    isplitl [Hp0]; · iexact Hp0
    isplitl [HO]; · iexact HO
    isplitl [HtS0]; · iexact HtS0
    isplitr; · iexact HrS0
    isplitl [HtR0P]; · iexact HtR0P
    iexact HrR0P
  iintro ⟨HcS0, HO⟩
  sl_exec (disch := simp only [dev1_eq, dev2_eq, dev3_eq])
  iapply (wp_send1 m K c _ (dev3_eq c) HatB_pay1_v _ 0 (by rw [zero_add]) _) $$ [HsL1 Hp1 HO HtS1 HtR1P]
  · isplitr; · iexact HIs1
    isplitr; · iexact HIr1P
    isplitl [HsL1]; · iexact HsL1
    isplitl [Hp1]; · iexact Hp1
    isplitl [HO]; · iexact HO
    isplitl [HtS1]; · iexact HtS1
    isplitr; · iexact HrS1
    isplitl [HtR1P]; · iexact HtR1P
    iexact HrR1P
  iintro ⟨HcS1, HO⟩
  sl_exec (disch := simp only [dev1_eq, dev2_eq, dev3_eq])
  sl_unfold_words
  -- the four own cells close: their counters at zero are the device's again
  imod (Rounds.cell_close ER (xRd m) (Set.mem_univ (K (c, 1))) (fun h => h) (R := 0 + 1) (duties_later m (sndCell0 c))) $$ [HatS0] with HzS0
  · isplitr; · iexact HIs0
    iexact HatS0
  imod (Rounds.cell_close ER (xRd m) (Set.mem_univ (K (c, 2))) (fun h => h) (R := 0 + 1) (duties_later m (sndCell1 c))) $$ [HatS1] with HzS1
  · isplitr; · iexact HIs1
    iexact HatS1
  imod (Rounds.cell_close ER (xRd m) (Set.mem_univ (K (c, 3))) (fun h => h) (R := 0 + 1) (duties_later m (rcvCell0 c))) $$ [HatR0] with HzR0
  · isplitr; · iexact HIr0
    iexact HatR0
  imod (Rounds.cell_close ER (xRd m) (Set.mem_univ (K (c, 4))) (fun h => h) (R := 0 + 1) (duties_later m (rcvCell1 c))) $$ [HatR1] with HzR1
  · isplitr; · iexact HIr1
    iexact HatR1
  -- the send buffer: the two lent halves back, joined, and joined with the kept share
  ihave HsL := (cut_s c fullShare.left (sbuf m c)).2 $$ [HatS0_pay1 HatS1_pay1]
  · isplitl [HatS0_pay1]; · iexact HatS0_pay1
    iexact HatS1_pay1
  ihave Hsb := (pointsTo_share (PosShare.mem_left_op_right fullShare)).2 $$ [HsL HsR]
  · isplitl [HsL]; · iexact HsL
    iexact HsR
  ihave Hsb := (Entails.of_eq (pts_s c fullShare _)) $$ Hsb
  -- the receive buffer: the two landed halves joined
  ihave Hrb := (cut_r c fullShare (sbuf m (peer c))).2 $$ [HatR0_pay1 HatR1_pay1]
  · isplitl [HatR0_pay1]; · iexact HatR0_pay1
    iexact HatR1_pay1
  ihave Hrb := (Entails.of_eq (pts_r c fullShare _)) $$ Hrb
  -- the result block: the two half stores are the whole-block sum
  have hout : (oM : Memref sig .tc .vmem S256x256 .bf16).view.writes (Elt F) g1
      [⟨rc1, k0_pay3 ((sM : Memref sig .tc .vmem S256x256 .bf16).view.readAt (Elt F) rc1.toLoadRect (sbuf m c))
          ((rM : Memref sig .tc .vmem S256x256 .bf16).view.readAt (Elt F) rc1.toLoadRect (sbuf m (peer c)))⟩,
        ⟨rc0, k0_pay2 ((sM : Memref sig .tc .vmem S256x256 .bf16).view.readAt (Elt F) rc0.toLoadRect (sbuf m c))
          ((rM : Memref sig .tc .vmem S256x256 .bf16).view.readAt (Elt F) rc0.toLoadRect (sbuf m (peer c)))⟩] = outAt m c :=
    stores_cover g1 (sbuf m c) (sbuf m (peer c))
  rw [hout]
  ihave Hout := (Entails.of_eq (pts_o c fullShare _)) $$ Hout
  ihave Hx := (Entails.of_eq (pts_x c fullShare _)) $$ Hx
  rw [wp_ret]; imodintro
  iapply Hk
  unfold bodyPost Φ₁ scr Dat.owesAt Pipeline.owesWithin
  rw [show (dats m ρ 0 c).owed t₀.succ = 0 from rfl]
  isplitl [Hsb Hrb HzS0 HzS1 HzR0 HzR1]
  · isplitl [Hsb Hrb]
    · isplitl [Hsb]; · iexists _; iexact Hsb
      iexists _; iexact Hrb
    isplitl [HzS0]; · iexact HzS0
    isplitl [HzS1]; · iexact HzS1
    isplitl [HzR0]; · iexact HzR0
    iexact HzR1
  isplitl [HO]
  · iexists _
    isplitr
    swap; · iexact HO
    ipureintro; exact fun _ _ => Or.inl trivial
  isplitl [Hx]
  · iexists _; isplitr; · (ipureintro; rfl)
    iexact Hx
  iexists _; isplitr; · (ipureintro; rfl)
  iexact Hout

set_option maxRecDepth 4000 in
/-- What the pipeline hands the body at the one point. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.Kernel.Exch.body_obligation' depends on axioms: [propext, Classical.choice, Quot.sound] -/
#guard_msgs in #print axioms body_obligation

end Cert.Kernel.Exch

end
-- ==== Proof.Kernel.Launch.lean ====
/-
  The launch of the exchange. The sixteen devices' cells (five each) are funded at round 0 in one ghost element. The
  invariants of all of them are allocated under one update, because a device's barrier cell and receive cells are paid
  by its partner. The duty tokens are dealt across the partner map, an involution: a device keeps its two send tokens
  and gets its partner's barrier token and two receive tokens. What the sixteen devices owe at launch sums, per cell,
  to one unit on each barrier cell and a half's credit on each receive cell. The launch theorem then runs @main, and
  the final arrays are read off the pipeline's proof data: `x` unchanged, the result block the whole-block sum.
-/
import proofs.«900714_g7700000000000715_dist_ar_v7x_xyz2x2x4_y_m256_n256_bf16_1_alg».proof.Proof.Kernel.Body

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The eighty cells of the exchange. -/
def xCells : Finset (GSem nD τ sig) := Finset.univ.map ⟨kcell, kcell_injective⟩

/-- A cell's one duty token as minted: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun _ _ h => kcell_injective (congrArg Prod.fst h)
def xToks : Finset (GSem nD τ sig × ℕ × Unit) := Finset.univ.map ⟨tokOf, tokOf_injective⟩

/-- The launch's ghost element: the pipeline's cells and tokens beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sndCell0 c) 0 () ∗ dutyTok ER (sndCell1 c) 0 ()
    ∗ dutyTok ER (rcvCell0 c) 0 () ∗ dutyTok ER (rcvCell1 c) 0 ())

/-- What the launch element deals device `c`: its five cells' round states, positions, reached-marks and tokens. -/
def G (c : Dev nD) : sProp 𝕄 :=
  iprop((bigSep Finset.univ fun k : Fin 5 => roundState ER (xRd m) (kcell (c, k)) 0)
    ∗ (bigSep Finset.univ fun k : Fin 5 => iprop(atPos ER (kcell (c, k)) 0 ∅ 0 ∗ reached ER (kcell (c, k)) 0)) ∗ toks c)

/-- What the global step makes of it: the device's starting ghost state at some names. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once, the tokens dealt across the partner map -/

/-- The four DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell0 c) 0 ∗ semVal (sndCell1 c) 0 ∗ semVal (rcvCell0 c) 0 ∗ semVal (rcvCell1 c) 0) := by
  rw [Pipeline.ownSems0_eq_of_list c osem [0, 1, 2, 3] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

/-- One device's five counters at zero and round states become its five cells' invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the launch: every cell's invariant at its name, every cell's round 0 reached. -/
def records (K : Dev nD × Fin 5 → ℕ) : sProp 𝕄 :=
  iprop((bigSep Finset.univ fun ck : Dev nD × Fin 5 => cellInv ER (xRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xRd m) (K ck) (kcell ck) : sProp 𝕄)) ⊢ cellInv ER (xRd m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's barrier duty and two receive duties, its own two send duties. -/
def payToks (c : Dev nD) : sProp 𝕄 :=
  iprop(dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())
/-- What stays with device `c`: its positions, and the tokens it pays with. -/
def linear (c : Dev nD) : sProp 𝕄 :=
  iprop((atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0)
    ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaV0, HaV1⟩, HtB, HtV0, HtV1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtV0]; · iexact HtV0
  isplitl [HtV1]; · iexact HtV1
  isplitl [HtS0]; · iexact HtS0
  iexact HtS1

/-- The partner map as a permutation of the devices. -/
def pairing : Dev nD ≃ Dev nD := ⟨peer, peer, peer_peer, peer_peer⟩

/-- The tokens dealt across the pairing: a device's barrier token and two receive tokens go to its partner, which pays
    them; its two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (rcvCell0 c) 0 () : sProp 𝕄)),
    bigSep_univ_equiv pairing (fun c : Dev nD => (dutyTok ER (rcvCell1 c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem rcv0_eq_iff {a b : Dev nD} : Iff (rcvCell0 a = rcvCell0 b) (a = b) :=
  ⟨fun h => Fin.ext (congrArg (fun g : GSem nD τ sig => g.1.1.val) h), fun h => h ▸ rfl⟩
theorem rcv1_eq_iff {a b : Dev nD} : Iff (rcvCell1 a = rcvCell1 b) (a = b) :=
  ⟨fun h => Fin.ext (congrArg (fun g : GSem nD τ sig => g.1.1.val) h), fun h => h ▸ rfl⟩

theorem eq_peer_of {c d : Dev nD} (h : c = peer d) : d = peer c := by rw [h, peer_peer]

/-- What device `d` owes device `c`'s barrier cell: a unit if `d` is `c`'s partner. -/
theorem owed_bar (d c : Dev nD) : O₀ d (barCell c) () = if d = peer c then 1 else 0 := by
  unfold O₀ O₁ O₂
  rw [Pi.add_apply, Finsupp.add_apply, Pi.add_apply, Finsupp.add_apply,
    tallyAt_ne_cell (g := rcvCell1 (peer d)) (g' := barCell c) (fun h => rcv1_ne_bar (congrArg Prod.snd h).symm),
    tallyAt_ne_cell (g := rcvCell0 (peer d)) (g' := barCell c) (fun h => rcv0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (eq_peer_of (bar_eq_iff.mp h1))), if_neg h]

/-- What device `d` owes device `c`'s receive cells: a half's credit each if `d` is `c`'s partner. -/
theorem owed_rcv0 (d c : Dev nD) : O₀ d (rcvCell0 c) () = if d = peer c then N else 0 := by
  unfold O₀ O₁ O₂
  rw [Pi.add_apply, Finsupp.add_apply, Pi.add_apply, Finsupp.add_apply,
    tallyAt_ne_cell (g := rcvCell1 (peer d)) (g' := rcvCell0 c) (fun h => rcv1_ne_rcv0 (congrArg Prod.snd h).symm),
    tallyAt_ne_cell (g := barCell (peer d)) (g' := rcvCell0 c) (fun h => rcv0_ne_bar (congrArg Prod.snd h)),
    tallyAt_apply, Finsupp.zero_apply, Nat.zero_add, Nat.add_zero]
  by_cases h : d = peer c
  · subst h; rw [peer_peer, if_pos ⟨rfl, rfl⟩, if_pos rfl]
  · rw [if_neg (fun ⟨h1, _⟩ => h (eq_peer_of (rcv0_eq_iff.mp h1))), if_neg h]

theorem owed_rcv1 (d c : Dev nD) : O₀ d (rcvCell1 c) () = if d = peer c then N else 0 := by
  unfold O₀ O₁ O₂
  rw [Pi.add_apply, Finsupp.add_apply, Pi.add_apply, Finsupp.add_apply,
    tallyAt_ne_cell (g := rcvCell0 (peer d)) (g' := rcvCell1 c) (fun h => rcv1_ne_rcv0 (congrArg Prod.snd h)),
    tallyAt_ne_cell (g := barCell (peer d)) (g' := rcvCell1 c) (fun h => rcv1_ne_bar (congrArg Prod.snd h)),
    tallyAt_apply, Finsupp.zero_apply, Nat.add_zero, Nat.add_zero]
  by_cases h : d = peer c
  · subst h; rw [peer_peer, if_pos ⟨rfl, rfl⟩, if_pos rfl]
  · rw [if_neg (fun ⟨h1, _⟩ => h (eq_peer_of (rcv1_eq_iff.mp h1))), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_rcv0 (c : Dev nD) :
    tallyOn (rcvCell0 c) (launchCredit (Pipeline.owing O₀) 0 (rcvCell0 c)) = (tallyAt (rcvCell0 c) () N : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N, if_pos (Finset.mem_univ _)]

theorem launch_rcv1 (c : Dev nD) :
    tallyOn (rcvCell1 c) (launchCredit (Pipeline.owing O₀) 0 (rcvCell1 c)) = (tallyAt (rcvCell1 c) () N : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N, if_pos (Finset.mem_univ _)]

/-- A device's launch credit holds its barrier cell's unit and its two receive cells' credits. -/
theorem creds (c : Dev nD) :
    (Pipeline.launchCred O₀ c : sProp 𝕄)
      ⊢ iprop(cred (tallyAt (barCell c) () 1) ∗ cred (tallyAt (rcvCell0 c) () N) ∗ cred (tallyAt (rcvCell1 c) () N)) := by
  unfold Pipeline.launchCred
  rw [bigSep_univ_at _ (SemLoc.reg barS), launch_bar]
  refine sep_mono_right ?_
  rw [bigSep_erase (i := SemLoc.dma rcvS0.sem) (Finset.mem_erase.mpr ⟨rcv0_ne_bar, Finset.mem_univ _⟩), launch_rcv0]
  refine sep_mono_right ?_
  rw [← launch_rcv1]
  exact bigSep_elim (Finset.mem_erase.mpr ⟨rcv1_ne_rcv0, Finset.mem_erase.mpr ⟨rcv1_ne_bar, Finset.mem_univ _⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- The windows' arrays after the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels handshaking pairwise on the runtime's barrier semaphore, then exchanging
    their rounded blocks half by half — terminates, and every final state has each device's two arrays at the contents
    the proof data name. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The `x` array after the run holds what it held. -/
theorem finalA_x (c : Dev nD) : finalA m ρ c (0 : Fin 2) = m ((c : Thread nD τ).loc main_arg0) :=
  (dats (F := F) m ρ 0 c).arrAt_in (0 : Fin 2) rfl _

/-- The one block of window 0 is the whole array: read through its view, the array is itself. -/
theorem xstg_eq (c : Dev nD) : xstg m c = xblk m c := by
  have hz : (fun a => (win0_0.index t₀) a * main_arg0.ty.shape.size a) = fun _ => 0 := funext fun a => by fin_cases a <;> decide
  exact Memref.read_access_unit_zero (Elt F) main_arg0 hz (fun a => by fin_cases a <;> decide) _

theorem sbuf_eq (c : Dev nD) : sbuf m c = sent m c := by unfold sbuf sent; rw [xstg_eq]

theorem outAt_eq (c : Dev nD) : outAt m c = resultAt m c := by unfold outAt resultAt; rw [sbuf_eq, sbuf_eq]

/-- The result array after the run: the output window is written back at the one point, its block the whole array, so
    the array holds what the body left in the staging buffer. -/
theorem finalA_out (c : Dev nD) : finalA m ρ c (1 : Fin 2) = outAt m c := by
  have hz : (fun a => (win0_1.index t₀) a * main_v1.ty.shape.size a) = fun _ => 0 := funext fun a => by fin_cases a <;> decide
  have hr := fun f => Memref.read_access_unit_zero (Elt F) main_v1 hz (fun a => by fin_cases a <;> decide) f
  have h1 : finalA m ρ c (1 : Fin 2)
      = ((cfg0.win 1).blk t₀).view.write (Elt F) ((dats m ρ 0 c).arrAt 1 t₀.val) ((dats m ρ 0 c).flushed 1 t₀) Finset.univ := by
    show (dats m ρ 0 c).arrAt 1 (t₀.val + 1) = _
    rw [Dat.arrAt_succ, if_pos (flush0_1 t₀)]
  calc finalA m ρ c (1 : Fin 2)
      = ((cfg0.win 1).blk t₀).view.read (Elt F) (finalA m ρ c (1 : Fin 2)) := (hr _).symm
    _ = (dats m ρ 0 c).flushed 1 t₀ := by rw [h1]; exact View.read_write_univ _ _
    _ = outAt m c := rfl

/-- From any memory with zero counters, every weakly fair execution of @main on the sixteen devices terminates, and in
    every final state each device's result block is its rounded block plus its partner's, and its `x` block is unchanged. -/
theorem run : θ_run defs (onTc (τ := τ) (main (F := F))) ⟨m, fun _ => 0, ρ⟩ (fun r => ∀ c : Dev nD,
      r.2.mem ((c.tc : Thread nD τ).loc main_v1) = resultAt m c
      ∧ r.2.mem ((c.tc : Thread nD τ).loc main_arg0) = m ((c.tc : Thread nD τ).loc main_arg0)) :=
  (θ_run defs _ _).mono
    (fun _ h c => ⟨(h c (1 : Fin 2)).trans ((finalA_out m ρ c).trans (outAt_eq m c)), (h c (0 : Fin 2)).trans (finalA_x m ρ c)⟩)
    (run_main m ρ)

/-- info: 'Cert.Kernel.Exch.run' depends on axioms: [propext, Classical.choice, Quot.sound] -/
#guard_msgs in #print axioms run

end Cert.Kernel.Exch

end
-- ==== Proof.KernelIdeal.Spec.lean ====
/-
  What the exchange computes, as one statement. Sixteen devices in a 2 × 2 × 4 mesh; a device's partner differs from it
  in the middle coordinate only, so the partner map is an involution. Each device rounds its 256 × 256 block of `x`
  to bf16, sends the rounded block to its partner in two halves of 128 rows and adds, half by half, what it receives to
  what it sent. The two half stores cover the result block, so the result is one whole-block sum: the device's rounded
  block plus its partner's.
-/
import proofs.«900714_g7700000000000715_dist_ar_v7x_xyz2x2x4_y_m256_n256_bf16_1_alg».proof.Proof.Gen.KernelIdeal.Skeleton

noncomputable section

namespace Cert.KernelIdeal.Exch

open Cert.KernelIdeal Cert.KernelIdeal.Gen
open Idealize.ShloMosaic Idealize.ShloMosaic.TcCoe Idealize.SL.Sem

variable {F : FTy → Type} [FloatOps F]

/-- The partner of device `c`: the device at the same `x` and `z` coordinates and the other `y` coordinate. -/
def peer (c : Dev nD) : Dev nD := ⟨k0_dev1 c, k0_dev1_lt c⟩

theorem peer_val (c : Dev nD) : (peer c).val = (8 * (c.val / 8) + (c.val % 4) + 4) - 4 * ((c.val / 4) % 2) := k0_dev1_eq c

/-- The partner's partner is the device itself. -/
theorem peer_peer (c : Dev nD) : peer (peer c) = c := by
  apply Fin.ext; rw [peer_val, peer_val]; revert c; decide

theorem peer_ne (c : Dev nD) : peer c ≠ c := by
  intro h; have := congrArg Fin.val h; rw [peer_val] at this; revert c; decide

/-- All three printed device chains name the partner. -/
theorem dev1_eq (c : Dev nD) : (⟨k0_dev1 c, k0_dev1_lt c⟩ : Dev nD) = peer c := rfl
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)

variable (m : (ℓ : Loc nD τ sig) → Buf (Elt F) ℓ)

/-- Device `c`'s block of `x` as launched. -/
def xblk (c : Dev nD) : Vec F S256x256 .f32 := m ((c : Thread nD τ).loc main_arg0)

/-- The block rounded to bf16: what device `c` keeps in its send buffer and what its partner receives. -/
def sent (c : Dev nD) : FVec F S256x256 .bf16 := k0_pay1 (xblk m c)

/-- The result block of device `c`: its rounded block plus its partner's, entry by entry. -/
def resultAt (c : Dev nD) : Buf (Elt F) ((c : Thread nD τ).loc main_v1) := addf (sent m c) (sent m (peer c))

end Cert.KernelIdeal.Exch

end
-- ==== Proof.KernelIdeal.Cells.lean ====
/-
  The exchange's protocol, as a schedule of rounds. Every device has five cells: its barrier cell and, for each of the
  two 128-row halves, a send cell and a receive cell. Each cell lives one round with one duty.
  * The barrier cell of device `c` is paid one unit by its partner's entry signal; with it the partner hands over its
    whole receive buffer (at any contents) and the fact that its two receive cells stand at round 0 — what `c` needs to
    copy into that buffer.
  * The send cell of half `k` is paid by the device's own copy once the source half is read: the source half of the send
    buffer comes back, at the share that was lent (the other share stays with the device, which reads the half again
    while the copy is pending).
  * The receive cell of half `k` is paid by the partner's copy once the half is written: the half of the receive buffer
    comes with it, holding the partner's rounded block on those rows.
  A device owes, from the start: one unit to its partner's barrier cell and a half's credit to each of its partner's
  receive cells. It waits on its barrier cell (level 1) while still owing the receive credits (level 2), and on every
  other cell owing nothing: no cycle of waits.
-/
import proofs.«900714_g7700000000000715_dist_ar_v7x_xyz2x2x4_y_m256_n256_bf16_1_alg».proof.Proof.KernelIdeal.Spec
import proofs.«900714_g7700000000000715_dist_ar_v7x_xyz2x2x4_y_m256_n256_bf16_1_alg».proof.Proof.Gen.KernelIdeal.Launch
import proofs.«900714_g7700000000000715_dist_ar_v7x_xyz2x2x4_y_m256_n256_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the exchange's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## Buffers, halves and cells -/

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1

/-- The whole block, rows 0–127 and rows 128–255. -/
abbrev rcW : Rect S256x256 := Rect.unit (s := S256x256) ![0, 0] S256x256.size inb_S256x256_S256x256_0_0
abbrev rc0 : Rect S256x256 := Rect.unit (s := S256x256) ![0, 0] S128x256.size inb_S256x256_S128x256_0_0
abbrev rc1 : Rect S256x256 := Rect.unit (s := S256x256) ![128, 0] S128x256.size inb_S256x256_S128x256_128_0

abbrev sH0 : Memref sig .tc .vmem S128x256 .bf16 := sM.slice rc0 (fun _ => rfl)
abbrev sH1 : Memref sig .tc .vmem S128x256 .bf16 := sM.slice rc1 (fun _ => rfl)
abbrev rH0 : Memref sig .tc .vmem S128x256 .bf16 := rM.slice rc0 (fun _ => rfl)
abbrev rH1 : Memref sig .tc .vmem S128x256 .bf16 := rM.slice rc1 (fun _ => rfl)

/-- The runtime's barrier semaphore (not scoped to the launch) and the four DMA semaphores of the scratch arrays. -/
abbrev barS : Sem sig := (SemArray.scalar (sig.barrier 0 rfl) : Sems sig S_).sem
abbrev sndS0 : DmaSems sig S_ := (cc0_scratch2.slice (Rect.unit (s := S2) ![0] S1.size inb_S2_S1_0)).squeeze S_ squeezes_S1_S_
abbrev sndS1 : DmaSems sig S_ := (cc0_scratch2.slice (Rect.unit (s := S2) ![1] S1.size inb_S2_S1_1)).squeeze S_ squeezes_S1_S_
abbrev rcvS0 : DmaSems sig S_ := (cc0_scratch3.slice (Rect.unit (s := S2) ![0] S1.size inb_S2_S1_0)).squeeze S_ squeezes_S1_S_
abbrev rcvS1 : DmaSems sig S_ := (cc0_scratch3.slice (Rect.unit (s := S2) ![1] S1.size inb_S2_S1_1)).squeeze S_ squeezes_S1_S_

abbrev barCell (c : Dev nD) : GSem nD τ sig := ((c : Thread nD τ), .reg barS)
abbrev sndCell0 (c : Dev nD) : GSem nD τ sig := ((c : Thread nD τ), .dma sndS0.sem)
abbrev sndCell1 (c : Dev nD) : GSem nD τ sig := ((c : Thread nD τ), .dma sndS1.sem)
abbrev rcvCell0 (c : Dev nD) : GSem nD τ sig := ((c : Thread nD τ), .dma rcvS0.sem)
abbrev rcvCell1 (c : Dev nD) : GSem nD τ sig := ((c : Thread nD τ), .dma rcvS1.sem)

/-- The kernel's own (scoped) semaphores, as the launch indexes them; -/
abbrev osem : Fin 4 → SemLoc sig := fun | 0 => .dma sndS0.sem | 1 => .dma sndS1.sem | 2 => .dma rcvS0.sem | 3 => .dma rcvS1.sem
/-- all five of the exchange's: barrier, the two send cells, the two receive cells. -/
abbrev csem : Fin 5 → SemLoc sig := fun | 0 => .reg barS | 1 => .dma sndS0.sem | 2 => .dma sndS1.sem | 3 => .dma rcvS0.sem | 4 => .dma rcvS1.sem
abbrev kcell (ck : Dev nD × Fin 5) : GSem nD τ sig := ((ck.1 : Thread nD τ), csem ck.2)

/-- A half's credit: what a copy of 128 × 256 bf16 entries pays. -/
abbrev N : ℕ := (rH0 : Memref sig .tc .vmem S128x256 .bf16).view.dmaCredit
theorem N_pos : 0 < N := View.dmaCredit_pos _ (by decide)

/-! ## Contents -/

/-- The `x` staging buffer after the fetch: the device's block as launched. -/
def xstg (c : Dev nD) : (cc0_stg0_0 : Ref sig .tc).ty.Contents (Elt F) :=
  (win0_0.blk (0 : Fin 1)).view.read (Elt F) (m ((c : Thread nD τ).loc main_arg0))

/-- The send buffer after the store: the block rounded to bf16. -/
def sbuf (c : Dev nD) : (cc0_scratch0 : Ref sig .tc).ty.Contents (Elt F) := k0_pay1 (xstg m c)

/-- The result block: the device's rounded block plus its partner's. -/
def outAt (c : Dev nD) : (cc0_stg1_0 : Ref sig .tc).ty.Contents (Elt F) := addf (sbuf m c) (sbuf m (peer c))

/-! ## The schedule -/

/-- What the partner's entry signal hands device `c`: the partner's receive buffer, whole, and that the partner's two
    receive cells stand at round 0. -/
def barPay (c : Dev nD) : sProp 𝕄 :=
  iprop((∃ f, (rM : Memref sig .tc .vmem S256x256 .bf16).view.loc (peer c : Thread nD τ) ↦[(rM : Memref sig .tc .vmem S256x256 .bf16).view.set]{fullShare} f)
    ∗ reached ER (rcvCell0 (peer c)) 0 ∗ reached ER (rcvCell1 (peer c)) 0)
/-- What a landed half hands its owner: those rows of the receive buffer, holding the partner's rounded block. -/
def rcvPay0 (c : Dev nD) : sProp 𝕄 :=
  (rH0 : Memref sig .tc .vmem S128x256 .bf16).view.loc (c : Thread nD τ) ↦[(rH0 : Memref sig .tc .vmem S128x256 .bf16).view.set]{fullShare} sbuf m (peer c)
def rcvPay1 (c : Dev nD) : sProp 𝕄 :=
  (rH1 : Memref sig .tc .vmem S128x256 .bf16).view.loc (c : Thread nD τ) ↦[(rH1 : Memref sig .tc .vmem S128x256 .bf16).view.set]{fullShare} sbuf m (peer c)
/-- What a departed half hands back: the lent share of those rows of the send buffer. -/
def sndPay0 (c : Dev nD) : sProp 𝕄 :=
  (sH0 : Memref sig .tc .vmem S128x256 .bf16).view.loc (c : Thread nD τ) ↦[(sH0 : Memref sig .tc .vmem S128x256 .bf16).view.set]{fullShare.left} sbuf m c
def sndPay1 (c : Dev nD) : sProp 𝕄 :=
  (sH1 : Memref sig .tc .vmem S128x256 .bf16).view.loc (c : Thread nD τ) ↦[(sH1 : Memref sig .tc .vmem S128x256 .bf16).view.set]{fullShare.left} sbuf m c

abbrev IsCell (g : GSem nD τ sig) : Prop :=
  g.1.2 = .tc ∧ (g.2 = .reg barS ∨ g.2 = .dma sndS0.sem ∨ g.2 = .dma sndS1.sem ∨ g.2 = .dma rcvS0.sem ∨ g.2 = .dma rcvS1.sem)

/-- One round, round 0, one duty per cell: a unit on a barrier cell, a half's credit on a send or receive cell. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma rcvS0.sem then rcvPay0 m g.1.1
    else if g.2 = .dma rcvS1.sem then rcvPay1 m g.1.1
    else if g.2 = .dma sndS0.sem then sndPay0 m g.1.1
    else if g.2 = .dma sndS1.sem then sndPay1 m g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1
    else if g.2 = .dma rcvS0.sem then rcvPay0 m g.1.1
    else if g.2 = .dma rcvS1.sem then rcvPay1 m g.1.1
    else if g.2 = .dma sndS0.sem then sndPay0 m g.1.1
    else if g.2 = .dma sndS1.sem then sndPay1 m g.1.1
    else iprop(emp))
  unfold barPay rcvPay0 rcvPay1 sndPay0 sndPay1
  (repeat' split) <;> infer_instance

section Sched
variable (c : Dev nD)

theorem snd0_ne_bar : (SemLoc.dma sndS0.sem : SemLoc sig) ≠ .reg barS := fun h => by cases h
theorem snd1_ne_bar : (SemLoc.dma sndS1.sem : SemLoc sig) ≠ .reg barS := fun h => by cases h
theorem rcv0_ne_bar : (SemLoc.dma rcvS0.sem : SemLoc sig) ≠ .reg barS := fun h => by cases h
theorem rcv1_ne_bar : (SemLoc.dma rcvS1.sem : SemLoc sig) ≠ .reg barS := fun h => by cases h
theorem rcv1_ne_rcv0 : (SemLoc.dma rcvS1.sem : SemLoc sig) ≠ .dma rcvS0.sem := by decide
theorem snd0_ne_rcv0 : (SemLoc.dma sndS0.sem : SemLoc sig) ≠ .dma rcvS0.sem := by decide
theorem snd0_ne_rcv1 : (SemLoc.dma sndS0.sem : SemLoc sig) ≠ .dma rcvS1.sem := by decide
theorem snd1_ne_rcv0 : (SemLoc.dma sndS1.sem : SemLoc sig) ≠ .dma rcvS0.sem := by decide
theorem snd1_ne_rcv1 : (SemLoc.dma sndS1.sem : SemLoc sig) ≠ .dma rcvS1.sem := by decide
theorem snd1_ne_snd0 : (SemLoc.dma sndS1.sem : SemLoc sig) ≠ .dma sndS0.sem := by decide

theorem duties_bar : (xRd (F := F) m).duties (barCell c) 0 = {()} := by dsimp only [xRd]; exact if_pos ⟨rfl, rfl, .inl rfl⟩
theorem duties_snd0 : (xRd (F := F) m).duties (sndCell0 c) 0 = {()} := by dsimp only [xRd]; exact if_pos ⟨rfl, rfl, .inr (.inl rfl)⟩
theorem duties_snd1 : (xRd (F := F) m).duties (sndCell1 c) 0 = {()} := by dsimp only [xRd]; exact if_pos ⟨rfl, rfl, .inr (.inr (.inl rfl))⟩
theorem duties_rcv0 : (xRd (F := F) m).duties (rcvCell0 c) 0 = {()} := by dsimp only [xRd]; exact if_pos ⟨rfl, rfl, .inr (.inr (.inr (.inl rfl)))⟩
theorem duties_rcv1 : (xRd (F := F) m).duties (rcvCell1 c) 0 = {()} := by dsimp only [xRd]; exact if_pos ⟨rfl, rfl, .inr (.inr (.inr (.inr rfl)))⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_snd0 (d : Unit) : (xRd (F := F) m).amount (sndCell0 c) 0 d = N := by dsimp only [xRd]; exact if_neg snd0_ne_bar
theorem amount_snd1 (d : Unit) : (xRd (F := F) m).amount (sndCell1 c) 0 d = N := by dsimp only [xRd]; exact if_neg snd1_ne_bar
theorem amount_rcv0 (d : Unit) : (xRd (F := F) m).amount (rcvCell0 c) 0 d = N := by dsimp only [xRd]; exact if_neg rcv0_ne_bar
theorem amount_rcv1 (d : Unit) : (xRd (F := F) m).amount (rcvCell1 c) 0 d = N := by dsimp only [xRd]; exact if_neg rcv1_ne_bar

theorem expect_bar : (xRd (F := F) m).expect (barCell c) 0 = 1 := by
  unfold Schedule.expect Schedule.amountOf; rw [duties_bar, Finset.sum_singleton, amount_bar]
theorem expect_snd0 : (xRd (F := F) m).expect (sndCell0 c) 0 = N := by
  unfold Schedule.expect Schedule.amountOf; rw [duties_snd0, Finset.sum_singleton, amount_snd0]
theorem expect_snd1 : (xRd (F := F) m).expect (sndCell1 c) 0 = N := by
  unfold Schedule.expect Schedule.amountOf; rw [duties_snd1, Finset.sum_singleton, amount_snd1]
theorem expect_rcv0 : (xRd (F := F) m).expect (rcvCell0 c) 0 = N := by
  unfold Schedule.expect Schedule.amountOf; rw [duties_rcv0, Finset.sum_singleton, amount_rcv0]
theorem expect_rcv1 : (xRd (F := F) m).expect (rcvCell1 c) 0 = N := by
  unfold Schedule.expect Schedule.amountOf; rw [duties_rcv1, Finset.sum_singleton, amount_rcv1]

theorem payload_bar (d : Unit) : (xRd (F := F) m).payload (barCell c) 0 d = barPay c := by dsimp only [xRd]; rw [if_pos rfl]
theorem payload_rcv0 (d : Unit) : (xRd (F := F) m).payload (rcvCell0 c) 0 d = rcvPay0 m c := by
  dsimp only [xRd]; rw [if_neg rcv0_ne_bar, if_pos rfl]
theorem payload_rcv1 (d : Unit) : (xRd (F := F) m).payload (rcvCell1 c) 0 d = rcvPay1 m c := by
  dsimp only [xRd]; rw [if_neg rcv1_ne_bar, if_neg rcv1_ne_rcv0, if_pos rfl]
theorem payload_snd0 (d : Unit) : (xRd (F := F) m).payload (sndCell0 c) 0 d = sndPay0 m c := by
  dsimp only [xRd]; rw [if_neg snd0_ne_bar, if_neg snd0_ne_rcv0, if_neg snd0_ne_rcv1, if_pos rfl]
theorem payload_snd1 (d : Unit) : (xRd (F := F) m).payload (sndCell1 c) 0 d = sndPay1 m c := by
  dsimp only [xRd]; rw [if_neg snd1_ne_bar, if_neg snd1_ne_rcv0, if_neg snd1_ne_rcv1, if_neg snd1_ne_snd0, if_pos rfl]

/-- The rest of a cell's round with no duty taken is its one payload. -/
theorem rest_bar : bigSep ((xRd (F := F) m).duties (barCell c) 0 \ ∅) (fun d => (xRd (F := F) m).payload (barCell c) 0 d) = barPay c := by
  rw [Finset.sdiff_empty, duties_bar, bigSep_singleton, payload_bar]
theorem rest_snd0 : bigSep ((xRd (F := F) m).duties (sndCell0 c) 0 \ ∅) (fun d => (xRd (F := F) m).payload (sndCell0 c) 0 d) = sndPay0 m c := by
  rw [Finset.sdiff_empty, duties_snd0, bigSep_singleton, payload_snd0]
theorem rest_snd1 : bigSep ((xRd (F := F) m).duties (sndCell1 c) 0 \ ∅) (fun d => (xRd (F := F) m).payload (sndCell1 c) 0 d) = sndPay1 m c := by
  rw [Finset.sdiff_empty, duties_snd1, bigSep_singleton, payload_snd1]
theorem rest_rcv0 : bigSep ((xRd (F := F) m).duties (rcvCell0 c) 0 \ ∅) (fun d => (xRd (F := F) m).payload (rcvCell0 c) 0 d) = rcvPay0 m c := by
  rw [Finset.sdiff_empty, duties_rcv0, bigSep_singleton, payload_rcv0]
theorem rest_rcv1 : bigSep ((xRd (F := F) m).duties (rcvCell1 c) 0 \ ∅) (fun d => (xRd (F := F) m).payload (rcvCell1 c) 0 d) = rcvPay1 m c := by
  rw [Finset.sdiff_empty, duties_rcv1, bigSep_singleton, payload_rcv1]

end Sched

/-! ## What each device owes at launch; the levels -/

/-- Device `c` owes its partner's two receive cells a half's credit each and its partner's barrier cell one unit —
    summed so that the entry signal peels the last summand, then the copy of the first half, then of the second. -/
def O₂ (c : Dev nD) : CellTallies nD τ sig Unit := tallyAt (rcvCell1 (peer c)) () N
def O₁ (c : Dev nD) : CellTallies nD τ sig Unit := O₂ c + tallyAt (rcvCell0 (peer c)) () N
def O₀ (c : Dev nD) : CellTallies nD τ sig Unit := O₁ c + tallyAt (barCell (peer c)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if g.2 = .dma rcvS0.sem ∨ g.2 = .dma rcvS1.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcvCell1 (peer c) ∨ g = rcvCell0 (peer c) := by
  unfold O₁ O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvCell1 (peer c) ∨ g = rcvCell0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₁_pos h with h1 | h1
    · exact .inl h1
    · exact .inr (.inl h1)

theorem lv_rcv0 (c : Dev nD) (u : Unit) : lv (rcvCell0 c) u = 2 := by
  dsimp only [lv]; rw [if_neg rcv0_ne_bar, if_pos (.inl rfl)]
theorem lv_rcv1 (c : Dev nD) (u : Unit) : lv (rcvCell1 c) u = 2 := by
  dsimp only [lv]; rw [if_neg rcv1_ne_bar, if_pos (.inr rfl)]
theorem lv_bar (c : Dev nD) (u : Unit) : lv (barCell c) u = 1 := by dsimp only [lv]; rw [if_pos rfl]

/-- A wait on a staging semaphore (level 0), at the start (owing `O₀`) or at the end (owing nothing). -/
theorem mayWait_stage (c : Dev nD) (q : DmaSem sig) (hq0 : SemLoc.dma q ≠ .dma rcvS0.sem) (hq1 : SemLoc.dma q ≠ .dma rcvS1.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_rcv1]; decide
        · rw [lv_rcv0]; decide
        · rw [lv_bar]; decide)
  · rw [MayWait_zero]; iintro -; iempintro

/-- At its barrier wait a device owes its partner's two receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_rcv1]; decide
      · rw [lv_rcv0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, and
    its partner's barrier cell (its signal) and two receive cells (its copies). -/
def invs (K : Dev nD × Fin 5 → ℕ) (c : Dev nD) : sProp 𝕄 :=
  iprop(cellInv ER (xRd m) (K (c, 0)) (barCell c) ∗ cellInv ER (xRd m) (K (c, 1)) (sndCell0 c) ∗ cellInv ER (xRd m) (K (c, 2)) (sndCell1 c)
    ∗ cellInv ER (xRd m) (K (c, 3)) (rcvCell0 c) ∗ cellInv ER (xRd m) (K (c, 4)) (rcvCell1 c)
    ∗ cellInv ER (xRd m) (K (peer c, 0)) (barCell (peer c))
    ∗ cellInv ER (xRd m) (K (peer c, 3)) (rcvCell0 (peer c)) ∗ cellInv ER (xRd m) (K (peer c, 4)) (rcvCell1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own; the five duty tokens it pays with — its partner's barrier duty,
    its partner's two receive duties, its own two send duties. -/
def ghost (K : Dev nD × Fin 5 → ℕ) (c : Dev nD) : sProp 𝕄 :=
  iprop(invs m K c
    ∗ atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0
    ∗ reached ER (barCell (peer c)) 0 ∗ reached ER (rcvCell0 (peer c)) 0 ∗ reached ER (rcvCell1 (peer c)) 0
    ∗ reached ER (sndCell0 c) 0 ∗ reached ER (sndCell1 c) 0 ∗ reached ER (rcvCell0 c) 0 ∗ reached ER (rcvCell1 c) 0
    ∗ dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())

/-- What device `c`'s body starts from: that at some names, its three credit tokens (its barrier's unit, its two
    receive cells' credits) and the level facts. -/
def start (c : Dev nD) : sProp 𝕄 :=
  iprop((∃ K, ghost m K c) ∗ cred (tallyAt (barCell c) () 1) ∗ cred (tallyAt (rcvCell0 c) () N) ∗ cred (tallyAt (rcvCell1 c) () N) ∗ levAts L lv)

/-- The two scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scr c)
/-- After the point: the scratch buffers back whole, the four own cells at zero, closed. -/
def Φ₁ (c : Dev nD) : sProp 𝕄 :=
  iprop(scr (F := F) c ∗ semVal (sndCell0 c) 0 ∗ semVal (sndCell1 c) 0 ∗ semVal (rcvCell0 c) 0 ∗ semVal (rcvCell1 c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, with the launch's names opened. -/
def bodyPre (K : Dev nD × Fin 5 → ℕ) (c : Dev nD) : sProp 𝕄 :=
  iprop((ghost m K c ∗ cred (tallyAt (barCell c) () 1) ∗ cred (tallyAt (rcvCell0 c) () N) ∗ cred (tallyAt (rcvCell1 c) () N) ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

end Cert.KernelIdeal.Exch

end
-- ==== Proof.KernelIdeal.Halves.lean ====
/-
  Views of a 256 × 256 buffer cut into its rows 0–127 and 128–255. The two row ranges are disjoint and cover the buffer;
  the half slices of the send and receive buffers sit exactly on them; a load of a half touches only that half; a half of
  one buffer written with the same half read off another buffer of the same type holds the source's entries on those
  rows; and storing, half by half, the entrywise sum of the halves of two contents leaves their entrywise sum on the whole
  buffer.
-/
import proofs.«900714_g7700000000000715_dist_ar_v7x_xyz2x2x4_y_m256_n256_bf16_1_alg».proof.Proof.KernelIdeal.Cells

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two row ranges -/

/-- An index lies in the upper half exactly when its row is below 128; -/
theorem mem_rc0 (i : S256x256.Idx) : i ∈ rc0.set ↔ (i 0).val < 128 := by
  rw [Rect.mem_set_unit, Fin.forall_fin_two]
  have h1 : (i 1).val < 256 := (i 1).isLt
  show ((0 ≤ (i 0).val ∧ (i 0).val < 0 + 128) ∧ (0 ≤ (i 1).val ∧ (i 1).val < 0 + 256)) ↔ _
  omega

/-- in the lower half exactly when it is not. -/
theorem mem_rc1 (i : S256x256.Idx) : i ∈ rc1.set ↔ 128 ≤ (i 0).val := by
  rw [Rect.mem_set_unit, Fin.forall_fin_two]
  have h0 : (i 0).val < 256 := (i 0).isLt
  have h1 : (i 1).val < 256 := (i 1).isLt
  show ((128 ≤ (i 0).val ∧ (i 0).val < 128 + 128) ∧ (0 ≤ (i 1).val ∧ (i 1).val < 0 + 256)) ↔ _
  omega

/-- Rows 0–127 and rows 128–255 share no entry … -/
theorem rc_disjoint : Disjoint rc0.set rc1.set :=
  Finset.disjoint_left.mpr fun i h0 h1 => by
    have := (mem_rc0 i).mp h0; have := (mem_rc1 i).mp h1; omega

/-- … and between them hold every entry. -/
theorem rc_cover : rc0.set ∪ rc1.set = Finset.univ := by
  ext i
  simp only [Finset.mem_union, Finset.mem_univ, iff_true, mem_rc0, mem_rc1]
  omega

/-! ## The half slices sit on the row ranges -/

theorem set_sH0 : (sH0 : Memref sig .tc .vmem S128x256 .bf16).view.set = rc0.set := View.set_slice_whole cc0_scratch0 rc0
theorem set_sH1 : (sH1 : Memref sig .tc .vmem S128x256 .bf16).view.set = rc1.set := View.set_slice_whole cc0_scratch0 rc1
theorem set_rH0 : (rH0 : Memref sig .tc .vmem S128x256 .bf16).view.set = rc0.set := View.set_slice_whole cc0_scratch1 rc0
theorem set_rH1 : (rH1 : Memref sig .tc .vmem S128x256 .bf16).view.set = rc1.set := View.set_slice_whole cc0_scratch1 rc1

/-! ## A load of a half touches only that half -/

/-- Through a whole buffer, the entries under a set of indices are those indices. -/
theorem setOn_whole (b : Ref sig .tc) (M : Finset b.ty.shape.Idx) : (View.whole b : View sig .tc _ _ _).setOn M = M :=
  Finset.map_refl

theorem load0_sub : (rM : Memref sig .tc .vmem S256x256 .bf16).view.setOn rc0.toLoadRect.set ⊆ (rH0 : Memref sig .tc .vmem S128x256 .bf16).view.set := by
  rw [set_rH0]; exact (setOn_whole cc0_scratch1 _).subset
theorem load1_sub : (rM : Memref sig .tc .vmem S256x256 .bf16).view.setOn rc1.toLoadRect.set ⊆ (rH1 : Memref sig .tc .vmem S128x256 .bf16).view.set := by
  rw [set_rH1]; exact (setOn_whole cc0_scratch1 _).subset
theorem sload0_sub : (sM : Memref sig .tc .vmem S256x256 .bf16).view.setOn rc0.toLoadRect.set ⊆ (sH0 : Memref sig .tc .vmem S128x256 .bf16).view.set := by
  rw [set_sH0]; exact (setOn_whole cc0_scratch0 _).subset
theorem sload1_sub : (sM : Memref sig .tc .vmem S256x256 .bf16).view.setOn rc1.toLoadRect.set ⊆ (sH1 : Memref sig .tc .vmem S128x256 .bf16).view.set := by
  rw [set_sH1]; exact (setOn_whole cc0_scratch0 _).subset

/-! ## A landed half reads as its source -/

/-- The upper half of the receive buffer, written with the upper half read off a send buffer's contents `fs`, holds
    `fs` on those rows: both halves are the same rows of buffers of one type. -/
theorem land0 (fd : (cc0_scratch1 : Ref sig .tc).ty.Contents (Elt F)) (fs : (cc0_scratch0 : Ref sig .tc).ty.Contents (Elt F)) :
    ∀ i ∈ (rH0 : Memref sig .tc .vmem S128x256 .bf16).view.set,
      (rH0 : Memref sig .tc .vmem S128x256 .bf16).view.write (Elt F) fd ((sH0 : Memref sig .tc .vmem S128x256 .bf16).view.read (Elt F) fs) Finset.univ i = fs i := by
  intro i hi
  obtain ⟨y, rfl⟩ := View.exists_emb_of_mem_set _ hi
  rw [View.write_emb_of_mem _ _ (Finset.mem_univ y)]
  rfl

/-- The lower half likewise. -/
theorem land1 (fd : (cc0_scratch1 : Ref sig .tc).ty.Contents (Elt F)) (fs : (cc0_scratch0 : Ref sig .tc).ty.Contents (Elt F)) :
    ∀ i ∈ (rH1 : Memref sig .tc .vmem S128x256 .bf16).view.set,
      (rH1 : Memref sig .tc .vmem S128x256 .bf16).view.write (Elt F) fd ((sH1 : Memref sig .tc .vmem S128x256 .bf16).view.read (Elt F) fs) Finset.univ i = fs i := by
  intro i hi
  obtain ⟨y, rfl⟩ := View.exists_emb_of_mem_set _ hi
  rw [View.write_emb_of_mem _ _ (Finset.mem_univ y)]
  rfl

/-! ## The two half stores make the whole-block sum -/

/-- A store through a row range of a whole buffer, at an entry of the range: the payload there. -/
theorem write_half_emb (b : Ref sig .tc) (r : Rect b.ty.shape) (f : b.ty.Contents (Elt F)) (w : r.shape.Idx → Elt F b.ty.elt)
    (x : r.shape.Idx) : ((Memref.whole b).access r : View sig .tc _ _ _).write (Elt F) f w Finset.univ (r.emb x) = w x := by
  have h := View.write_emb_of_mem (v := ((Memref.whole b).access r : View sig .tc _ _ _)) (Val := Elt F) f w
    (M := Finset.univ) (x := x) (Finset.mem_univ _)
  exact h

/-- Off the range the buffer keeps what it held. -/
theorem write_half_off (b : Ref sig .tc) (r : Rect b.ty.shape) (f : b.ty.Contents (Elt F)) (w : r.shape.Idx → Elt F b.ty.elt)
    (i : b.ty.shape.Idx) (hi : i ∉ r.set) : ((Memref.whole b).access r : View sig .tc _ _ _).write (Elt F) f w Finset.univ i = f i :=
  View.write_of_not_mem _ _ _ (by rw [View.setOn_univ, View.set_slice_whole]; exact hi)

/-- The sum of the upper halves stored on the upper rows, then the sum of the lower halves on the lower rows: the sum,
    entry by entry, on the whole buffer, whatever it held before. -/
theorem stores_cover (f0 a b : (cc0_stg1_0 : Ref sig .tc).ty.Contents (Elt F)) :
    ((oM : Memref sig .tc .vmem S256x256 .bf16).access rc1 : View sig .tc _ _ _).write (Elt F)
      (((oM : Memref sig .tc .vmem S256x256 .bf16).access rc0 : View sig .tc _ _ _).write (Elt F) f0
        (k0_pay2 ((sM : Memref sig .tc .vmem S256x256 .bf16).view.readAt (Elt F) rc0.toLoadRect a) ((rM : Memref sig .tc .vmem S256x256 .bf16).view.readAt (Elt F) rc0.toLoadRect b)) Finset.univ)
      (k0_pay3 ((sM : Memref sig .tc .vmem S256x256 .bf16).view.readAt (Elt F) rc1.toLoadRect a) ((rM : Memref sig .tc .vmem S256x256 .bf16).view.readAt (Elt F) rc1.toLoadRect b)) Finset.univ
    = addf a b := by
  funext (i : S256x256.Idx)
  by_cases h1 : i ∈ rc1.set
  · obtain ⟨x, rfl⟩ := rc1.toLoadRect.exists_idx_of_mem h1
    exact (write_half_emb cc0_stg1_0 rc1 _ _ x).trans rfl
  · have h0 : i ∈ rc0.set := by
      have hu : i ∈ rc0.set ∪ rc1.set := by rw [rc_cover]; exact Finset.mem_univ i
      exact (Finset.mem_union.mp hu).resolve_right h1
    refine (write_half_off cc0_stg1_0 rc1 _ _ i h1).trans ?_
    obtain ⟨x, rfl⟩ := rc0.toLoadRect.exists_idx_of_mem h0
    exact (write_half_emb cc0_stg1_0 rc0 _ _ x).trans rfl

/-! ## The whole block -/

theorem zero_offsets : (![0, 0] : Fin 2 → Nat) = fun _ => 0 := funext fun a => by fin_cases a <;> rfl

/-- A load of the whole staging block reads its contents; -/
theorem read_xW (f : (cc0_stg0_0 : Ref sig .tc).ty.Contents (Elt F)) :
    (xM : Memref sig .tc .vmem S256x256 .f32).view.readAt (Elt F) rcW.toLoadRect f = f :=
  Memref.readAt_unit_zero (Elt F) cc0_stg0_0 zero_offsets _ f

/-- a store over the whole send buffer leaves its payload. -/
theorem write_sW (f w : (cc0_scratch0 : Ref sig .tc).ty.Contents (Elt F)) :
    ((sM : Memref sig .tc .vmem S256x256 .bf16).access rcW : View sig .tc _ _ _).write (Elt F) f w Finset.univ = w :=
  Memref.write_access_unit_zero_univ (Elt F) cc0_scratch0 zero_offsets _ f w

/-- info: 'Cert.KernelIdeal.Exch.stores_cover' depends on axioms: [propext, Classical.choice, Quot.sound] -/
#guard_msgs in #print axioms stores_cover

end Cert.KernelIdeal.Exch

end
-- ==== Proof.KernelIdeal.Body.lean ====
/-
  One device's body, stepped once at a symbolic device `c` with partner `peer c`.
  The entry signal pays the partner's barrier duty and hands over this device's receive buffer. The block is rounded
  into the send buffer. The wait on the device's own barrier cell brings the partner's receive buffer. The send buffer
  is then cut twice: by share — one share is lent to the two copies and comes back with their departures, the other is
  kept, because each half is read again while its copy is still pending — and by halves of rows; the partner's
  receive buffer is cut by halves. Each copy pays the device's send duty and the partner's receive duty of its half; a
  landed half holds the sender's rounded block on its rows. After the wait for a half's landing the two halves are
  added and stored; the two stores cover the result block, which is therefore the whole-block sum of the device's
  rounded block and its partner's. After the two waits for the departures the four own cells are closed and the two
  scratch buffers are whole again.
-/
import proofs.«900714_g7700000000000715_dist_ar_v7x_xyz2x2x4_y_m256_n256_bf16_1_alg».proof.Proof.KernelIdeal.Halves

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 5 → ℕ)

/-- A whole buffer's points-to, stated through its view. -/
theorem pts_x (c : Dev nD) (q : PosShare TreeShare) (f : Buf (Elt F) ((c : Thread nD τ).loc cc0_stg0_0)) :
    ((xM : Memref sig .tc .vmem S256x256 .f32).view.loc (c : Thread nD τ) ↦[(xM : Memref sig .tc .vmem S256x256 .f32).view.set]{q} f : sProp 𝕄)
      = (((c : Thread nD τ).loc cc0_stg0_0) ↦{q} f) := by
  rw [View.set_whole]
theorem pts_o (c : Dev nD) (q : PosShare TreeShare) (f : Buf (Elt F) ((c : Thread nD τ).loc cc0_stg1_0)) :
    ((oM : Memref sig .tc .vmem S256x256 .bf16).view.loc (c : Thread nD τ) ↦[(oM : Memref sig .tc .vmem S256x256 .bf16).view.set]{q} f : sProp 𝕄)
      = (((c : Thread nD τ).loc cc0_stg1_0) ↦{q} f) := by
  rw [View.set_whole]
theorem pts_s (c : Dev nD) (q : PosShare TreeShare) (f : Buf (Elt F) ((c : Thread nD τ).loc cc0_scratch0)) :
    ((sM : Memref sig .tc .vmem S256x256 .bf16).view.loc (c : Thread nD τ) ↦[(sM : Memref sig .tc .vmem S256x256 .bf16).view.set]{q} f : sProp 𝕄)
      = (((c : Thread nD τ).loc cc0_scratch0) ↦{q} f) := by
  rw [View.set_whole]
theorem pts_r (c : Dev nD) (q : PosShare TreeShare) (f : Buf (Elt F) ((c : Thread nD τ).loc cc0_scratch1)) :
    ((rM : Memref sig .tc .vmem S256x256 .bf16).view.loc (c : Thread nD τ) ↦[(rM : Memref sig .tc .vmem S256x256 .bf16).view.set]{q} f : sProp 𝕄)
      = (((c : Thread nD τ).loc cc0_scratch1) ↦{q} f) := by
  rw [View.set_whole]

/-- The partner's barrier payload, with the partner's partner resolved: what device `c` hands over at its entry signal. -/
theorem payload_bar_peer (c : Dev nD) (d : Unit) : (xRd (F := F) m).payload (barCell (peer c)) 0 d
    = iprop((∃ f, (rM : Memref sig .tc .vmem S256x256 .bf16).view.loc (c : Thread nD τ) ↦[(rM : Memref sig .tc .vmem S256x256 .bf16).view.set]{fullShare} f)
      ∗ reached ER (rcvCell0 c) 0 ∗ reached ER (rcvCell1 c) 0) := by
  rw [payload_bar]; unfold barPay; rw [peer_peer]

theorem barPay_eq (c : Dev nD) : barPay (F := F) c = iprop((∃ f, (rM : Memref sig .tc .vmem S256x256 .bf16).view.loc (peer c : Thread nD τ) ↦[(rM : Memref sig .tc .vmem S256x256 .bf16).view.set]{fullShare} f)
    ∗ reached ER (rcvCell0 (peer c)) 0 ∗ reached ER (rcvCell1 (peer c)) 0) := rfl

/-- A whole send buffer, at any share, is its two halves of rows. -/
theorem cut_s (c : Dev nD) (q : PosShare TreeShare) (f : Buf (Elt F) ((sM : Memref sig .tc .vmem S256x256 .bf16).view.loc (c : Thread nD τ))) :
    ((sM : Memref sig .tc .vmem S256x256 .bf16).view.loc (c : Thread nD τ) ↦[(sM : Memref sig .tc .vmem S256x256 .bf16).view.set]{q} f : sProp 𝕄)
      ⊣⊢ iprop(((sH0 : Memref sig .tc .vmem S128x256 .bf16).view.loc (c : Thread nD τ) ↦[(sH0 : Memref sig .tc .vmem S128x256 .bf16).view.set]{q} f)
          ∗ ((sH1 : Memref sig .tc .vmem S128x256 .bf16).view.loc (c : Thread nD τ) ↦[(sH1 : Memref sig .tc .vmem S128x256 .bf16).view.set]{q} f)) := by
  have e : (sM : Memref sig .tc .vmem S256x256 .bf16).view.set
      = (sH0 : Memref sig .tc .vmem S128x256 .bf16).view.set ∪ (sH1 : Memref sig .tc .vmem S128x256 .bf16).view.set := by
    rw [View.set_whole, set_sH0, set_sH1, rc_cover]
  rw [e]
  exact pointsTo_union (by rw [set_sH0, set_sH1]; exact rc_disjoint)

/-- A whole receive buffer is its two halves of rows. -/
theorem cut_r (c : Dev nD) (q : PosShare TreeShare) (f : Buf (Elt F) ((rM : Memref sig .tc .vmem S256x256 .bf16).view.loc (c : Thread nD τ))) :
    ((rM : Memref sig .tc .vmem S256x256 .bf16).view.loc (c : Thread nD τ) ↦[(rM : Memref sig .tc .vmem S256x256 .bf16).view.set]{q} f : sProp 𝕄)
      ⊣⊢ iprop(((rH0 : Memref sig .tc .vmem S128x256 .bf16).view.loc (c : Thread nD τ) ↦[(rH0 : Memref sig .tc .vmem S128x256 .bf16).view.set]{q} f)
          ∗ ((rH1 : Memref sig .tc .vmem S128x256 .bf16).view.loc (c : Thread nD τ) ↦[(rH1 : Memref sig .tc .vmem S128x256 .bf16).view.set]{q} f)) := by
  have e : (rM : Memref sig .tc .vmem S256x256 .bf16).view.set
      = (rH0 : Memref sig .tc .vmem S128x256 .bf16).view.set ∪ (rH1 : Memref sig .tc .vmem S128x256 .bf16).view.set := by
    rw [View.set_whole, set_rH0, set_rH1, rc_cover]
  rw [e]
  exact pointsTo_union (by rw [set_rH0, set_rH1]; exact rc_disjoint)

theorem sndPay0_eq (c : Dev nD) : sndPay0 (F := F) m c = ((sH0 : Memref sig .tc .vmem S128x256 .bf16).view.loc (c : Thread nD τ) ↦[(sH0 : Memref sig .tc .vmem S128x256 .bf16).view.set]{fullShare.left} sbuf m c) := rfl
theorem sndPay1_eq (c : Dev nD) : sndPay1 (F := F) m c = ((sH1 : Memref sig .tc .vmem S128x256 .bf16).view.loc (c : Thread nD τ) ↦[(sH1 : Memref sig .tc .vmem S128x256 .bf16).view.set]{fullShare.left} sbuf m c) := rfl
theorem rcvPay0_eq (c : Dev nD) : rcvPay0 (F := F) m c = ((rH0 : Memref sig .tc .vmem S128x256 .bf16).view.loc (c : Thread nD τ) ↦[(rH0 : Memref sig .tc .vmem S128x256 .bf16).view.set]{fullShare} sbuf m (peer c)) := rfl
theorem rcvPay1_eq (c : Dev nD) : rcvPay1 (F := F) m c = ((rH1 : Memref sig .tc .vmem S128x256 .bf16).view.loc (c : Thread nD τ) ↦[(rH1 : Memref sig .tc .vmem S128x256 .bf16).view.set]{fullShare} sbuf m (peer c)) := rfl

/-- The copy of half 0 to the partner `n = peer c` (substituted, not rewritten): the lent share of the source half comes
    back with the departure, the partner's half arrives holding this device's rounded block on those rows. -/
theorem wp_send0 (c n : Dev nD) (hn : n = peer c)
    {hsc : (rH0 : Memref sig (Dev.tc n : Thread nD τ).2.kind .vmem S128x256 .bf16).view.ref.isScScratch = false}
    {hsrc : (sH0 : Memref sig .tc .vmem S128x256 .bf16).view.WordExact} {hdst : (rH0 : Memref sig .tc .vmem S128x256 .bf16).view.WordExact}
    {hsem : DmaTarget.Typed .vmem (.dma rcvS0.sem) (.remote (Dev.tc n : Thread nD τ) (rH0 : Memref sig .tc .vmem S128x256 .bf16) (.dma sndS0.sem) hsc)}
    {α : Type} {Q : α → sProp 𝕄} {k : PUnit → Prog (TpuEff nD τ sig (Elt F) Λ₀ .tc) α}
    (fn : Buf (Elt F) ((rH0 : Memref sig .tc .vmem S128x256 .bf16).view.loc (peer c : Thread nD τ)))
    (O₀ O : CellTallies nD τ sig Unit) (hO : O₀ = O + tallyAt (rcvCell0 (peer c)) () N) (W : Waits sig Unit) :
    iprop(cellInv ER (xRd m) (K (c, 1)) (sndCell0 c) ∗ cellInv ER (xRd m) (K (peer c, 3)) (rcvCell0 (peer c))
        ∗ ((sH0 : Memref sig .tc .vmem S128x256 .bf16).view.loc (c : Thread nD τ) ↦[(sH0 : Memref sig .tc .vmem S128x256 .bf16).view.set]{fullShare.left} sbuf m c)
        ∗ ((rH0 : Memref sig .tc .vmem S128x256 .bf16).view.loc (peer c : Thread nD τ) ↦[(rH0 : Memref sig .tc .vmem S128x256 .bf16).view.set]{fullShare} fn)
        ∗ owes (c : Thread nD τ) O₀ W
        ∗ dutyTok ER (sndCell0 c) 0 () ∗ reached ER (sndCell0 c) 0
        ∗ dutyTok ER (rcvCell0 (peer c)) 0 () ∗ reached ER (rcvCell0 (peer c)) 0)
      ⊢ iprop(((cred (tallyAt (sndCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH0 (.remote (Dev.tc n : Thread nD τ) rH0 (.dma sndS0.sem) hsc) (.dma rcvS0.sem) hsrc hdst hsem) k) Q) := by
  subst hn
  exact Rounds.wp_send_pointsTo 𝒱₀ ER (xRd m) (c : Thread nD τ) none (κ₁ := K (c, 1)) (κ₂ := K (peer c, 3))
    (r₁ := 0) (r₂ := 0) (d₁ := ()) (d₂ := ()) (fd := fn)
    (by rw [duties_snd0]; exact Finset.mem_singleton_self _) (by rw [duties_rcv0]; exact Finset.mem_singleton_self _)
    () () N rfl (amount_snd0 m c ()) (amount_rcv0 m (peer c) ()) O hO (W := W)
    (by rw [payload_snd0]; exact BI.Entails.refl _)
    (by rw [payload_rcv0]; unfold rcvPay0; rw [peer_peer]; exact Entails.of_eq (pointsTo_congr (land0 fn (sbuf m c))))

/-- The copy of half 1 to the partner `n = peer c` (substituted, not rewritten): the lent share of the source half comes
    back with the departure, the partner's half arrives holding this device's rounded block on those rows. -/
theorem wp_send1 (c n : Dev nD) (hn : n = peer c)
    {hsc : (rH1 : Memref sig (Dev.tc n : Thread nD τ).2.kind .vmem S128x256 .bf16).view.ref.isScScratch = false}
    {hsrc : (sH1 : Memref sig .tc .vmem S128x256 .bf16).view.WordExact} {hdst : (rH1 : Memref sig .tc .vmem S128x256 .bf16).view.WordExact}
    {hsem : DmaTarget.Typed .vmem (.dma rcvS1.sem) (.remote (Dev.tc n : Thread nD τ) (rH1 : Memref sig .tc .vmem S128x256 .bf16) (.dma sndS1.sem) hsc)}
    {α : Type} {Q : α → sProp 𝕄} {k : PUnit → Prog (TpuEff nD τ sig (Elt F) Λ₀ .tc) α}
    (fn : Buf (Elt F) ((rH1 : Memref sig .tc .vmem S128x256 .bf16).view.loc (peer c : Thread nD τ)))
    (O₀ O : CellTallies nD τ sig Unit) (hO : O₀ = O + tallyAt (rcvCell1 (peer c)) () N) (W : Waits sig Unit) :
    iprop(cellInv ER (xRd m) (K (c, 2)) (sndCell1 c) ∗ cellInv ER (xRd m) (K (peer c, 4)) (rcvCell1 (peer c))
        ∗ ((sH1 : Memref sig .tc .vmem S128x256 .bf16).view.loc (c : Thread nD τ) ↦[(sH1 : Memref sig .tc .vmem S128x256 .bf16).view.set]{fullShare.left} sbuf m c)
        ∗ ((rH1 : Memref sig .tc .vmem S128x256 .bf16).view.loc (peer c : Thread nD τ) ↦[(rH1 : Memref sig .tc .vmem S128x256 .bf16).view.set]{fullShare} fn)
        ∗ owes (c : Thread nD τ) O₀ W
        ∗ dutyTok ER (sndCell1 c) 0 () ∗ reached ER (sndCell1 c) 0
        ∗ dutyTok ER (rcvCell1 (peer c)) 0 () ∗ reached ER (rcvCell1 (peer c)) 0)
      ⊢ iprop(((cred (tallyAt (sndCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sH1 (.remote (Dev.tc n : Thread nD τ) rH1 (.dma sndS1.sem) hsc) (.dma rcvS1.sem) hsrc hdst hsem) k) Q) := by
  subst hn
  exact Rounds.wp_send_pointsTo 𝒱₀ ER (xRd m) (c : Thread nD τ) none (κ₁ := K (c, 2)) (κ₂ := K (peer c, 4))
    (r₁ := 0) (r₂ := 0) (d₁ := ()) (d₂ := ()) (fd := fn)
    (by rw [duties_snd1]; exact Finset.mem_singleton_self _) (by rw [duties_rcv1]; exact Finset.mem_singleton_self _)
    () () N rfl (amount_snd1 m c ()) (amount_rcv1 m (peer c) ()) O hO (W := W)
    (by rw [payload_snd1]; exact BI.Entails.refl _)
    (by rw [payload_rcv1]; unfold rcvPay1; rw [peer_peer]; exact Entails.of_eq (pointsTo_congr (land1 fn (sbuf m c))))

attribute [local sl_canon] dev1_eq dev2_eq dev3_eq
attribute [local sl_rounds] duties_bar duties_snd0 duties_snd1 duties_rcv0 duties_rcv1 amount_bar amount_snd0 amount_snd1 amount_rcv0 amount_rcv1
  expect_bar expect_snd0 expect_snd1 expect_rcv0 expect_rcv1 payload_bar payload_rcv0 payload_rcv1 payload_snd0 payload_snd1 barPay_eq sndPay0_eq sndPay1_eq rcvPay0_eq rcvPay1_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  unfold bodyPre ghost invs scr
  iintro ⟨⟨⟨⟨⟨#HIbar, #HIs0, #HIs1, #HIr0, #HIr1, #HIbarP, #HIr0P, #HIr1P⟩, HatB, HatS0, HatS1, HatR0, HatR1,
      #HrBP, #HrR0P, #HrR1P, #HrS0, #HrS1, #HrR0, #HrR1, HtBP, HtR0P, HtR1P, HtS0, HtS1⟩, HcB, HcR0, HcR1, #Hlev, ⟨%fs, Hsb⟩, ⟨%fr, Hrb⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂
  ihave Hx := (Entails.of_eq (pts_x c fullShare _).symm) $$ Hx
  ihave Hout := (Entails.of_eq (pts_o c fullShare _).symm) $$ Hout
  ihave Hsb := (Entails.of_eq (pts_s c fullShare _).symm) $$ Hsb
  ihave Hrb := (Entails.of_eq (pts_r c fullShare _).symm) $$ Hrb
  have hmw : (levAts L lv : sProp 𝕄) ⊢ MayWait (c : Thread nD τ) (.reg barS) () (tallyAt (rcvCell1 (peer c)) () N + tallyAt (rcvCell0 (peer c)) () N) :=
    mayWait_bar c
  sl_exec (disch := simp only [dev1_eq, dev2_eq, dev3_eq])
  -- the entry signal to the partner: its barrier duty, with this device's receive buffer and its receive cells' marks
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) ()
      (tallyAt (rcvCell1 (peer c)) () N + tallyAt (rcvCell0 (peer c)) () N) rfl) $$ [HO HtBP Hrb]
  · isplitr; · iexact HIbarP
    isplitl [HO]; · iexact HO
    isplitl [HtBP]; · iexact HtBP
    isplitl [Hrb]
    · rw [payload_bar_peer]
      isplitl [Hrb]; · iexists fr; iexact Hrb
      isplitr; · iexact HrR0
      iexact HrR1
    · iexact HrBP
  iintro HO
  sl_exec (disch := simp only [dev1_eq, dev2_eq, dev3_eq])
  -- the send buffer now holds the rounded block; it is cut by share (one share lent to the copies, one kept for the
  -- reads) and by halves of rows, the partner's receive buffer by halves
  have hsb : (sM : Memref sig .tc .vmem S256x256 .bf16).view.writes (Elt F) fs
      [⟨rcW, k0_pay1 ((xM : Memref sig .tc .vmem S256x256 .f32).view.readAt (Elt F) rcW.toLoadRect (xstg m c))⟩] = sbuf m c := by
    rw [read_xW]; exact write_sW _ _
  rw [hsb]
  ihave Hsb2 := (pointsTo_share (PosShare.mem_left_op_right fullShare)).1 $$ Hsb
  icases Hsb2 with ⟨HsL, HsR⟩
  ihave HsL2 := (cut_s c fullShare.left (sbuf m c)).1 $$ HsL
  icases HsL2 with ⟨HsL0, HsL1⟩
  ihave Hp2 := (cut_r (peer c) fullShare HatB_pay1_v).1 $$ HatB_pay1
  icases Hp2 with ⟨Hp0, Hp1⟩
  -- the two copies, half by half
  iapply (wp_send0 m K c _ (dev2_eq c) HatB_pay1_v _ (tallyAt (rcvCell1 (peer c)) () N) rfl _) $$ [HsL0 Hp0 HO HtS0 HtR0P]
  · isplitr; · iexact HIs0
    isplitr; · iexact HIr0P
    isplitl [HsL0]; · iexact HsL0
    isplitl [Hp0]; · iexact Hp0
    isplitl [HO]; · iexact HO
    isplitl [HtS0]; · iexact HtS0
    isplitr; · iexact HrS0
    isplitl [HtR0P]; · iexact HtR0P
    iexact HrR0P
  iintro ⟨HcS0, HO⟩
  sl_exec (disch := simp only [dev1_eq, dev2_eq, dev3_eq])
  iapply (wp_send1 m K c _ (dev3_eq c) HatB_pay1_v _ 0 (by rw [zero_add]) _) $$ [HsL1 Hp1 HO HtS1 HtR1P]
  · isplitr; · iexact HIs1
    isplitr; · iexact HIr1P
    isplitl [HsL1]; · iexact HsL1
    isplitl [Hp1]; · iexact Hp1
    isplitl [HO]; · iexact HO
    isplitl [HtS1]; · iexact HtS1
    isplitr; · iexact HrS1
    isplitl [HtR1P]; · iexact HtR1P
    iexact HrR1P
  iintro ⟨HcS1, HO⟩
  sl_exec (disch := simp only [dev1_eq, dev2_eq, dev3_eq])
  sl_unfold_words
  -- the four own cells close: their counters at zero are the device's again
  imod (Rounds.cell_close ER (xRd m) (Set.mem_univ (K (c, 1))) (fun h => h) (R := 0 + 1) (duties_later m (sndCell0 c))) $$ [HatS0] with HzS0
  · isplitr; · iexact HIs0
    iexact HatS0
  imod (Rounds.cell_close ER (xRd m) (Set.mem_univ (K (c, 2))) (fun h => h) (R := 0 + 1) (duties_later m (sndCell1 c))) $$ [HatS1] with HzS1
  · isplitr; · iexact HIs1
    iexact HatS1
  imod (Rounds.cell_close ER (xRd m) (Set.mem_univ (K (c, 3))) (fun h => h) (R := 0 + 1) (duties_later m (rcvCell0 c))) $$ [HatR0] with HzR0
  · isplitr; · iexact HIr0
    iexact HatR0
  imod (Rounds.cell_close ER (xRd m) (Set.mem_univ (K (c, 4))) (fun h => h) (R := 0 + 1) (duties_later m (rcvCell1 c))) $$ [HatR1] with HzR1
  · isplitr; · iexact HIr1
    iexact HatR1
  -- the send buffer: the two lent halves back, joined, and joined with the kept share
  ihave HsL := (cut_s c fullShare.left (sbuf m c)).2 $$ [HatS0_pay1 HatS1_pay1]
  · isplitl [HatS0_pay1]; · iexact HatS0_pay1
    iexact HatS1_pay1
  ihave Hsb := (pointsTo_share (PosShare.mem_left_op_right fullShare)).2 $$ [HsL HsR]
  · isplitl [HsL]; · iexact HsL
    iexact HsR
  ihave Hsb := (Entails.of_eq (pts_s c fullShare _)) $$ Hsb
  -- the receive buffer: the two landed halves joined
  ihave Hrb := (cut_r c fullShare (sbuf m (peer c))).2 $$ [HatR0_pay1 HatR1_pay1]
  · isplitl [HatR0_pay1]; · iexact HatR0_pay1
    iexact HatR1_pay1
  ihave Hrb := (Entails.of_eq (pts_r c fullShare _)) $$ Hrb
  -- the result block: the two half stores are the whole-block sum
  have hout : (oM : Memref sig .tc .vmem S256x256 .bf16).view.writes (Elt F) g1
      [⟨rc1, k0_pay3 ((sM : Memref sig .tc .vmem S256x256 .bf16).view.readAt (Elt F) rc1.toLoadRect (sbuf m c))
          ((rM : Memref sig .tc .vmem S256x256 .bf16).view.readAt (Elt F) rc1.toLoadRect (sbuf m (peer c)))⟩,
        ⟨rc0, k0_pay2 ((sM : Memref sig .tc .vmem S256x256 .bf16).view.readAt (Elt F) rc0.toLoadRect (sbuf m c))
          ((rM : Memref sig .tc .vmem S256x256 .bf16).view.readAt (Elt F) rc0.toLoadRect (sbuf m (peer c)))⟩] = outAt m c :=
    stores_cover g1 (sbuf m c) (sbuf m (peer c))
  rw [hout]
  ihave Hout := (Entails.of_eq (pts_o c fullShare _)) $$ Hout
  ihave Hx := (Entails.of_eq (pts_x c fullShare _)) $$ Hx
  rw [wp_ret]; imodintro
  iapply Hk
  unfold bodyPost Φ₁ scr Dat.owesAt Pipeline.owesWithin
  rw [show (dats m ρ 0 c).owed t₀.succ = 0 from rfl]
  isplitl [Hsb Hrb HzS0 HzS1 HzR0 HzR1]
  · isplitl [Hsb Hrb]
    · isplitl [Hsb]; · iexists _; iexact Hsb
      iexists _; iexact Hrb
    isplitl [HzS0]; · iexact HzS0
    isplitl [HzS1]; · iexact HzS1
    isplitl [HzR0]; · iexact HzR0
    iexact HzR1
  isplitl [HO]
  · iexists _
    isplitr
    swap; · iexact HO
    ipureintro; exact fun _ _ => Or.inl trivial
  isplitl [Hx]
  · iexists _; isplitr; · (ipureintro; rfl)
    iexact Hx
  iexists _; isplitr; · (ipureintro; rfl)
  iexact Hout

set_option maxRecDepth 4000 in
/-- What the pipeline hands the body at the one point. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.KernelIdeal.Exch.body_obligation' depends on axioms: [propext, Classical.choice, Quot.sound] -/
#guard_msgs in #print axioms body_obligation

end Cert.KernelIdeal.Exch

end
-- ==== Proof.KernelIdeal.Launch.lean ====
/-
  The launch of the exchange. The sixteen devices' cells (five each) are funded at round 0 in one ghost element. The
  invariants of all of them are allocated under one update, because a device's barrier cell and receive cells are paid
  by its partner. The duty tokens are dealt across the partner map, an involution: a device keeps its two send tokens
  and gets its partner's barrier token and two receive tokens. What the sixteen devices owe at launch sums, per cell,
  to one unit on each barrier cell and a half's credit on each receive cell. The launch theorem then runs @main, and
  the final arrays are read off the pipeline's proof data: `x` unchanged, the result block the whole-block sum.
-/
import proofs.«900714_g7700000000000715_dist_ar_v7x_xyz2x2x4_y_m256_n256_bf16_1_alg».proof.Proof.KernelIdeal.Body

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The eighty cells of the exchange. -/
def xCells : Finset (GSem nD τ sig) := Finset.univ.map ⟨kcell, kcell_injective⟩

/-- A cell's one duty token as minted: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun _ _ h => kcell_injective (congrArg Prod.fst h)
def xToks : Finset (GSem nD τ sig × ℕ × Unit) := Finset.univ.map ⟨tokOf, tokOf_injective⟩

/-- The launch's ghost element: the pipeline's cells and tokens beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sndCell0 c) 0 () ∗ dutyTok ER (sndCell1 c) 0 ()
    ∗ dutyTok ER (rcvCell0 c) 0 () ∗ dutyTok ER (rcvCell1 c) 0 ())

/-- What the launch element deals device `c`: its five cells' round states, positions, reached-marks and tokens. -/
def G (c : Dev nD) : sProp 𝕄 :=
  iprop((bigSep Finset.univ fun k : Fin 5 => roundState ER (xRd m) (kcell (c, k)) 0)
    ∗ (bigSep Finset.univ fun k : Fin 5 => iprop(atPos ER (kcell (c, k)) 0 ∅ 0 ∗ reached ER (kcell (c, k)) 0)) ∗ toks c)

/-- What the global step makes of it: the device's starting ghost state at some names. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once, the tokens dealt across the partner map -/

/-- The four DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell0 c) 0 ∗ semVal (sndCell1 c) 0 ∗ semVal (rcvCell0 c) 0 ∗ semVal (rcvCell1 c) 0) := by
  rw [Pipeline.ownSems0_eq_of_list c osem [0, 1, 2, 3] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

/-- One device's five counters at zero and round states become its five cells' invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the launch: every cell's invariant at its name, every cell's round 0 reached. -/
def records (K : Dev nD × Fin 5 → ℕ) : sProp 𝕄 :=
  iprop((bigSep Finset.univ fun ck : Dev nD × Fin 5 => cellInv ER (xRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xRd m) (K ck) (kcell ck) : sProp 𝕄)) ⊢ cellInv ER (xRd m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's barrier duty and two receive duties, its own two send duties. -/
def payToks (c : Dev nD) : sProp 𝕄 :=
  iprop(dutyTok ER (barCell (peer c)) 0 () ∗ dutyTok ER (rcvCell0 (peer c)) 0 () ∗ dutyTok ER (rcvCell1 (peer c)) 0 ()
    ∗ dutyTok ER (sndCell0 c) 0 () ∗ dutyTok ER (sndCell1 c) 0 ())
/-- What stays with device `c`: its positions, and the tokens it pays with. -/
def linear (c : Dev nD) : sProp 𝕄 :=
  iprop((atPos ER (barCell c) 0 ∅ 0 ∗ atPos ER (sndCell0 c) 0 ∅ 0 ∗ atPos ER (sndCell1 c) 0 ∅ 0 ∗ atPos ER (rcvCell0 c) 0 ∅ 0 ∗ atPos ER (rcvCell1 c) 0 ∅ 0)
    ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaV0, HaV1⟩, HtB, HtV0, HtV1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtV0]; · iexact HtV0
  isplitl [HtV1]; · iexact HtV1
  isplitl [HtS0]; · iexact HtS0
  iexact HtS1

/-- The partner map as a permutation of the devices. -/
def pairing : Dev nD ≃ Dev nD := ⟨peer, peer, peer_peer, peer_peer⟩

/-- The tokens dealt across the pairing: a device's barrier token and two receive tokens go to its partner, which pays
    them; its two send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (rcvCell0 c) 0 () : sProp 𝕄)),
    bigSep_univ_equiv pairing (fun c : Dev nD => (dutyTok ER (rcvCell1 c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xRd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem rcv0_eq_iff {a b : Dev nD} : Iff (rcvCell0 a = rcvCell0 b) (a = b) :=
  ⟨fun h => Fin.ext (congrArg (fun g : GSem nD τ sig => g.1.1.val) h), fun h => h ▸ rfl⟩
theorem rcv1_eq_iff {a b : Dev nD} : Iff (rcvCell1 a = rcvCell1 b) (a = b) :=
  ⟨fun h => Fin.ext (congrArg (fun g : GSem nD τ sig => g.1.1.val) h), fun h => h ▸ rfl⟩

theorem eq_peer_of {c d : Dev nD} (h : c = peer d) : d = peer c := by rw [h, peer_peer]

/-- What device `d` owes device `c`'s barrier cell: a unit if `d` is `c`'s partner. -/
theorem owed_bar (d c : Dev nD) : O₀ d (barCell c) () = if d = peer c then 1 else 0 := by
  unfold O₀ O₁ O₂
  rw [Pi.add_apply, Finsupp.add_apply, Pi.add_apply, Finsupp.add_apply,
    tallyAt_ne_cell (g := rcvCell1 (peer d)) (g' := barCell c) (fun h => rcv1_ne_bar (congrArg Prod.snd h).symm),
    tallyAt_ne_cell (g := rcvCell0 (peer d)) (g' := barCell c) (fun h => rcv0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (eq_peer_of (bar_eq_iff.mp h1))), if_neg h]

/-- What device `d` owes device `c`'s receive cells: a half's credit each if `d` is `c`'s partner. -/
theorem owed_rcv0 (d c : Dev nD) : O₀ d (rcvCell0 c) () = if d = peer c then N else 0 := by
  unfold O₀ O₁ O₂
  rw [Pi.add_apply, Finsupp.add_apply, Pi.add_apply, Finsupp.add_apply,
    tallyAt_ne_cell (g := rcvCell1 (peer d)) (g' := rcvCell0 c) (fun h => rcv1_ne_rcv0 (congrArg Prod.snd h).symm),
    tallyAt_ne_cell (g := barCell (peer d)) (g' := rcvCell0 c) (fun h => rcv0_ne_bar (congrArg Prod.snd h)),
    tallyAt_apply, Finsupp.zero_apply, Nat.zero_add, Nat.add_zero]
  by_cases h : d = peer c
  · subst h; rw [peer_peer, if_pos ⟨rfl, rfl⟩, if_pos rfl]
  · rw [if_neg (fun ⟨h1, _⟩ => h (eq_peer_of (rcv0_eq_iff.mp h1))), if_neg h]

theorem owed_rcv1 (d c : Dev nD) : O₀ d (rcvCell1 c) () = if d = peer c then N else 0 := by
  unfold O₀ O₁ O₂
  rw [Pi.add_apply, Finsupp.add_apply, Pi.add_apply, Finsupp.add_apply,
    tallyAt_ne_cell (g := rcvCell0 (peer d)) (g' := rcvCell1 c) (fun h => rcv1_ne_rcv0 (congrArg Prod.snd h)),
    tallyAt_ne_cell (g := barCell (peer d)) (g' := rcvCell1 c) (fun h => rcv1_ne_bar (congrArg Prod.snd h)),
    tallyAt_apply, Finsupp.zero_apply, Nat.add_zero, Nat.add_zero]
  by_cases h : d = peer c
  · subst h; rw [peer_peer, if_pos ⟨rfl, rfl⟩, if_pos rfl]
  · rw [if_neg (fun ⟨h1, _⟩ => h (eq_peer_of (rcv1_eq_iff.mp h1))), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_rcv0 (c : Dev nD) :
    tallyOn (rcvCell0 c) (launchCredit (Pipeline.owing O₀) 0 (rcvCell0 c)) = (tallyAt (rcvCell0 c) () N : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N, if_pos (Finset.mem_univ _)]

theorem launch_rcv1 (c : Dev nD) :
    tallyOn (rcvCell1 c) (launchCredit (Pipeline.owing O₀) 0 (rcvCell1 c)) = (tallyAt (rcvCell1 c) () N : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N, if_pos (Finset.mem_univ _)]

/-- A device's launch credit holds its barrier cell's unit and its two receive cells' credits. -/
theorem creds (c : Dev nD) :
    (Pipeline.launchCred O₀ c : sProp 𝕄)
      ⊢ iprop(cred (tallyAt (barCell c) () 1) ∗ cred (tallyAt (rcvCell0 c) () N) ∗ cred (tallyAt (rcvCell1 c) () N)) := by
  unfold Pipeline.launchCred
  rw [bigSep_univ_at _ (SemLoc.reg barS), launch_bar]
  refine sep_mono_right ?_
  rw [bigSep_erase (i := SemLoc.dma rcvS0.sem) (Finset.mem_erase.mpr ⟨rcv0_ne_bar, Finset.mem_univ _⟩), launch_rcv0]
  refine sep_mono_right ?_
  rw [← launch_rcv1]
  exact bigSep_elim (Finset.mem_erase.mpr ⟨rcv1_ne_rcv0, Finset.mem_erase.mpr ⟨rcv1_ne_bar, Finset.mem_univ _⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- The windows' arrays after the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels handshaking pairwise on the runtime's barrier semaphore, then exchanging
    their rounded blocks half by half — terminates, and every final state has each device's two arrays at the contents
    the proof data name. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The `x` array after the run holds what it held. -/
theorem finalA_x (c : Dev nD) : finalA m ρ c (0 : Fin 2) = m ((c : Thread nD τ).loc main_arg0) :=
  (dats (F := F) m ρ 0 c).arrAt_in (0 : Fin 2) rfl _

/-- The one block of window 0 is the whole array: read through its view, the array is itself. -/
theorem xstg_eq (c : Dev nD) : xstg m c = xblk m c := by
  have hz : (fun a => (win0_0.index t₀) a * main_arg0.ty.shape.size a) = fun _ => 0 := funext fun a => by fin_cases a <;> decide
  exact Memref.read_access_unit_zero (Elt F) main_arg0 hz (fun a => by fin_cases a <;> decide) _

theorem sbuf_eq (c : Dev nD) : sbuf m c = sent m c := by unfold sbuf sent; rw [xstg_eq]

theorem outAt_eq (c : Dev nD) : outAt m c = resultAt m c := by unfold outAt resultAt; rw [sbuf_eq, sbuf_eq]

/-- The result array after the run: the output window is written back at the one point, its block the whole array, so
    the array holds what the body left in the staging buffer. -/
theorem finalA_out (c : Dev nD) : finalA m ρ c (1 : Fin 2) = outAt m c := by
  have hz : (fun a => (win0_1.index t₀) a * main_v1.ty.shape.size a) = fun _ => 0 := funext fun a => by fin_cases a <;> decide
  have hr := fun f => Memref.read_access_unit_zero (Elt F) main_v1 hz (fun a => by fin_cases a <;> decide) f
  have h1 : finalA m ρ c (1 : Fin 2)
      = ((cfg0.win 1).blk t₀).view.write (Elt F) ((dats m ρ 0 c).arrAt 1 t₀.val) ((dats m ρ 0 c).flushed 1 t₀) Finset.univ := by
    show (dats m ρ 0 c).arrAt 1 (t₀.val + 1) = _
    rw [Dat.arrAt_succ, if_pos (flush0_1 t₀)]
  calc finalA m ρ c (1 : Fin 2)
      = ((cfg0.win 1).blk t₀).view.read (Elt F) (finalA m ρ c (1 : Fin 2)) := (hr _).symm
    _ = (dats m ρ 0 c).flushed 1 t₀ := by rw [h1]; exact View.read_write_univ _ _
    _ = outAt m c := rfl

/-- From any memory with zero counters, every weakly fair execution of @main on the sixteen devices terminates, and in
    every final state each device's result block is its rounded block plus its partner's, and its `x` block is unchanged. -/
theorem run : θ_run defs (onTc (τ := τ) (main (F := F))) ⟨m, fun _ => 0, ρ⟩ (fun r => ∀ c : Dev nD,
      r.2.mem ((c.tc : Thread nD τ).loc main_v1) = resultAt m c
      ∧ r.2.mem ((c.tc : Thread nD τ).loc main_arg0) = m ((c.tc : Thread nD τ).loc main_arg0)) :=
  (θ_run defs _ _).mono
    (fun _ h c => ⟨(h c (1 : Fin 2)).trans ((finalA_out m ρ c).trans (outAt_eq m c)), (h c (0 : Fin 2)).trans (finalA_x m ρ c)⟩)
    (run_main m ρ)

/-- info: 'Cert.KernelIdeal.Exch.run' depends on axioms: [propext, Classical.choice, Quot.sound] -/
#guard_msgs in #print axioms run

end Cert.KernelIdeal.Exch

end
-- ==== Proof.RefSide.lean ====
/-
  The reference on one device: `x` of 512 × 256 read as two stacked 256 × 256 blocks and summed over the stacking axis,
  the sum then rounded to bf16 (no change of value over the extended reals). Entry `(r, l)` of the result is
  `x (r, l) + x (256 + r, l)`: the sum starts from the constant `0`, which adds nothing.
-/
import proofs.«900714_g7700000000000715_dist_ar_v7x_xyz2x2x4_y_m256_n256_bf16_1_alg».proof.Defs
import proofs.«900714_g7700000000000715_dist_ar_v7x_xyz2x2x4_y_m256_n256_bf16_1_alg».proof.Proof.Gen.ReferenceIdeal
import proofs.«900714_g7700000000000715_dist_ar_v7x_xyz2x2x4_y_m256_n256_bf16_1_alg».proof.Proof.Gen.Pre_finite_inputs_ReferenceIdeal
import proofs.«900714_g7700000000000715_dist_ar_v7x_xyz2x2x4_y_m256_n256_bf16_1_alg».proof.Proof.Gen.ReferenceIdeal.Run
import proofs.«900714_g7700000000000715_dist_ar_v7x_xyz2x2x4_y_m256_n256_bf16_1_alg».proof.Proof.Gen.ReferenceIdeal.Read
import proofs.«900714_g7700000000000715_dist_ar_v7x_xyz2x2x4_y_m256_n256_bf16_1_alg».proof.Proof.KernelIdeal.Spec
import Idealize.ShloMosaic.Lib.Layout
import Idealize.ShloMosaic.Lib.ValueIdx
import Idealize.ShloMosaic.Lib.Pipeline.Value
import Idealize.ShloMosaic.PureOps.Ideal.Laws

noncomputable section

namespace Cert.Proof.RefSide

open Idealize.ShloMosaic Idealize.ShloMosaic.TcCoe Idealize.SL.Sem
open Idealize.ShloMosaic.ValueIdx
open Cert.ReferenceIdeal (S512x256 S256x256 main_arg0 main_v2)

/-- The reference runs and leaves its argument as it found it: the generated run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Where entry `i = (r, l)` of stacked block `k` lies in the whole array: row `k · 256 + r`, column `l`. -/
def stacked (k : Fin 2) (i : S256x256.Idx) : S512x256.Idx :=
  ix2 (n0 := 512) (n1 := 256)
    ⟨k.val * 256 + (i 0).val, by have h0 := idx2_lt0 i; have hk := k.isLt; omega⟩
    ⟨(i 1).val, idx2_lt1 i⟩

theorem stacked_val0 (k : Fin 2) (i : S256x256.Idx) : (stacked k i 0).val = k.val * 256 + (i 0).val := rfl
theorem stacked_val1 (k : Fin 2) (i : S256x256.Idx) : (stacked k i 1).val = (i 1).val := rfl

/-- The reference's result as one function of its whole argument: the upper block plus the lower block, entry by entry. -/
def refSum (X : Vec Ideal S512x256 .f32) : Vec Ideal S256x256 .bf16 :=
  fun i => (show EReal from X (stacked 0 i)) + (show EReal from X (stacked 1 i))

theorem refSum_apply (X : Vec Ideal S512x256 .f32) (i : S256x256.Idx) :
    refSum X i = (show EReal from X (stacked 0 i)) + (show EReal from X (stacked 1 i)) := rfl

/-- Reading the reshape under the reduction: entry `i` of stacked block `k` of the reshaped array is the whole array at
    `stacked k i` (the flat position `(k · 256 + r) · 256 + l` has row `k · 256 + r` and column `l`). -/
theorem idx_stacked (i : S256x256.Idx) (k : Fin 2) :
    Cert.ReferenceIdeal.Read.idx_main_v0 (Cert.ReferenceIdeal.Read.idx_main_v1 i k) = stacked k i := by
  have h1 := idx2_lt1 i
  funext a
  match a with
  | ⟨0, _⟩ =>
    exact Fin.ext (by
      show ((k.val * 256 + (i 0).val) * 256 + (i 1).val) / 256 = k.val * 256 + (i 0).val
      omega)
  | ⟨1, _⟩ =>
    exact Fin.ext (by
      show ((k.val * 256 + (i 0).val) * 256 + (i 1).val) % 256 = (i 1).val
      omega)

/-- The reference's composed term is `refSum`. -/
theorem ref_eq (X : Vec Ideal S512x256 .f32) : Cert.ReferenceIdeal.Read.val_main_v2 (F := Ideal) X = refSum X := by
  funext i
  rw [Cert.ReferenceIdeal.Read.val_main_v2_apply, Cert.ReferenceIdeal.Read.val_main_v1_apply, Fin.sum_univ_two,
    Cert.ReferenceIdeal.Read.val_main_v0_apply, Cert.ReferenceIdeal.Read.val_main_v0_apply,
    Cert.ReferenceIdeal.Read.val_main_cst_apply, idx_stacked, idx_stacked, refSum_apply]
  show (Ideal.ofBits .f32 0x00000000#32 + ((show EReal from X (stacked 0 i)) + (show EReal from X (stacked 1 i))) : EReal) = _
  rw [Ideal.ofBits_zero_f32, zero_add]

/-- The reference's run with its result named: `refSum` of the argument, the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc main_v2)
          = refSum (m' (((0 : Dev Cert.ReferenceIdeal.nD).tc : Thread Cert.ReferenceIdeal.nD Cert.ReferenceIdeal.τ).loc main_arg0))
      ∧ r.2.mem (((0 : Dev Cert.ReferenceIdeal.nD).tc : Thread Cert.ReferenceIdeal.nD Cert.ReferenceIdeal.τ).loc main_arg0)
          = m' (((0 : Dev Cert.ReferenceIdeal.nD).tc : Thread Cert.ReferenceIdeal.nD Cert.ReferenceIdeal.τ).loc main_arg0)) :=
  (θ_run Cert.ReferenceIdeal.defs _ _).mono
    (fun _ h => ⟨(h 0).1.trans ((Cert.ReferenceIdeal.Read.val_main_v2_eq _).trans (ref_eq _)), (h 0).2⟩)
    (Cert.ReferenceIdeal.Value.run (F := Ideal) m' ρ')

/-- info: 'Cert.Proof.RefSide.ref_run' depends on axioms: [propext, Classical.choice, Quot.sound] -/
#guard_msgs in #print axioms ref_run

end Cert.Proof.RefSide

end
-- ==== Proof.Bridge.lean ====
/-
  The kernel's result on every device is the reference's result. Device `c` sits at mesh coordinates
  `(c / 8, c / 4 % 2, c % 4)` and holds block `y = c / 4 % 2` of `x` (rows `y · 256 … y · 256 + 255`); its partner has
  the same first and last coordinates and the other middle one, so it holds block `1 - y`. Rounding to bf16 changes no
  value over the extended reals, so device `c` ends with block `y` plus block `1 - y`, entry by entry; the reference
  ends with `0` plus block `0` plus block `1`. Addition of extended reals is commutative, so the two agree whichever
  block the device holds.
-/
import proofs.«900714_g7700000000000715_dist_ar_v7x_xyz2x2x4_y_m256_n256_bf16_1_alg».proof.Proof.RefSide
import proofs.«900714_g7700000000000715_dist_ar_v7x_xyz2x2x4_y_m256_n256_bf16_1_alg».proof.Proof.Gen.KernelIdeal
import proofs.«900714_g7700000000000715_dist_ar_v7x_xyz2x2x4_y_m256_n256_bf16_1_alg».proof.Proof.Gen.Pre_finite_inputs_Kernel

noncomputable section

namespace Cert.Proof.Bridge

open Idealize.ShloMosaic Idealize.ShloMosaic.TcCoe Idealize.SL.Sem
open Idealize.ShloMosaic.ValueIdx
open Cert.Proof.RefSide
open Cert.ReferenceIdeal (S512x256 S256x256)

/-! ## Which block a device holds -/

/-- Along the rows the array is cut by the mesh's middle axis: device `c` holds block `c / 4 % 2`. -/
theorem blockCoord_rows : ∀ c : Dev 16, ((Layout.meshBlock [2, 2, 4] ![[1], []] c) 0).val = c.val / 4 % 2 := by decide

/-- Along the columns the array is not cut: the one block. -/
theorem blockCoord_cols : ∀ c : Dev 16, ((Layout.meshBlock [2, 2, 4] ![[1], []] c) 1).val = 0 := by decide

/-- The middle mesh coordinate of a device, as a block number. -/
def yOf (c : Dev 16) : Fin 2 := ⟨c.val / 4 % 2, Nat.mod_lt _ (by decide)⟩

/-- The partner holds the other block. -/
theorem yOf_peer (c : Dev Cert.KernelIdeal.nD) : (yOf (Cert.KernelIdeal.Exch.peer c)).val = 1 - (yOf c).val := by
  show (Cert.KernelIdeal.Exch.peer c).val / 4 % 2 = 1 - c.val / 4 % 2
  rw [Cert.KernelIdeal.Exch.peer_val]; revert c; decide

/-- Device `c`'s block of the whole array `X`, read at an entry: `X` at that entry of stacked block `c / 4 % 2`. -/
theorem block_apply (X : Vec Ideal S512x256 .f32) (c : Dev 16) (i : S256x256.Idx) :
    (Layout.blockN ⟨2, ![256, 256]⟩ ⟨2, ![512, 256]⟩ (Layout.meshBlock [2, 2, 4] ![[1], []] c) X) i = X (stacked (yOf c) i) := by
  rw [Layout.blockN_apply]
  refine congrArg X (funext fun b => Fin.ext ?_)
  rw [Layout.TilesN.idx_val]
  match b with
  | ⟨0, _⟩ =>
    show ((Layout.meshBlock [2, 2, 4] ![[1], []] c) 0).val * 256 + (i 0).val = c.val / 4 % 2 * 256 + (i 0).val
    rw [blockCoord_rows]
  | ⟨1, _⟩ =>
    show ((Layout.meshBlock [2, 2, 4] ![[1], []] c) 1).val * 256 + (i 1).val = (i 1).val
    rw [blockCoord_cols, Nat.zero_mul, Nat.zero_add]

/-! ## What a device sends -/

/-- Over the extended reals the rounded block is the block: both reshapes are to the same shape and the change of format
    is the identity. -/
theorem pay_eq (v : Vec Ideal Cert.KernelIdeal.S256x256 .f32) :
    Cert.KernelIdeal.Gen.k0_pay1 (F := Ideal) v = fun i => (show EReal from v i) := by
  unfold Cert.KernelIdeal.Gen.k0_pay1
  simp only [shapeCast_self]
  rfl

/-- So what a device sends is its block of `x`, entry by entry. -/
theorem sent_eq (m : (ℓ : Loc Cert.KernelIdeal.nD Cert.KernelIdeal.τ Cert.KernelIdeal.sig) → Buf (Elt Ideal) ℓ)
    (c : Dev Cert.KernelIdeal.nD) :
    Cert.KernelIdeal.Exch.sent (F := Ideal) m c = fun i => (show EReal from Cert.KernelIdeal.Exch.xblk (F := Ideal) m c i) :=
  pay_eq _

/-! ## The result -/

/-- Two stacked blocks summed in either order. -/
theorem sum_blocks (X : Vec Ideal S512x256 .f32) (i : S256x256.Idx) (y y' : Fin 2) (h : y'.val = 1 - y.val) :
    (show EReal from X (stacked y i)) + (show EReal from X (stacked y' i)) = refSum X i := by
  rw [refSum_apply]
  have hy : y.val < 2 := y.isLt
  rcases Nat.lt_or_ge y.val 1 with h0 | h1
  · obtain rfl : y = 0 := Fin.ext (by show y.val = 0; omega)
    obtain rfl : y' = 1 := Fin.ext (by show y'.val = 1; rw [h]; rfl)
    rfl
  · obtain rfl : y = 1 := Fin.ext (by show y.val = 1; omega)
    obtain rfl : y' = 0 := Fin.ext (by show y'.val = 0; rw [h]; rfl)
    exact add_comm (G := EReal) _ _

/-- On every device the kernel's result block is the reference's result. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    (Cert.KernelIdeal.Exch.resultAt (F := Ideal) m c : Vec Ideal S256x256 .bf16)
      = refSum (m' (((0 : Dev Cert.ReferenceIdeal.nD).tc : Thread Cert.ReferenceIdeal.nD Cert.ReferenceIdeal.τ).loc Cert.ReferenceIdeal.main_arg0)) := by
  funext i
  have hx : ∀ d : Dev Cert.KernelIdeal.nD, ∀ j : S256x256.Idx,
      Cert.KernelIdeal.Exch.xblk (F := Ideal) m d j
        = (m' (((0 : Dev Cert.ReferenceIdeal.nD).tc : Thread Cert.ReferenceIdeal.nD Cert.ReferenceIdeal.τ).loc Cert.ReferenceIdeal.main_arg0)) (stacked (yOf d) j) := by
    intro d j
    show m ((d.tc : Thread Cert.KernelIdeal.nD Cert.KernelIdeal.τ).loc Cert.KernelIdeal.main_arg0) j = _
    rw [hagree d]
    exact block_apply _ d j
  show addf (Cert.KernelIdeal.Exch.sent (F := Ideal) m c) (Cert.KernelIdeal.Exch.sent (F := Ideal) m (Cert.KernelIdeal.Exch.peer c)) i = _
  rw [addf_apply, sent_eq, sent_eq]
  show (show EReal from Cert.KernelIdeal.Exch.xblk (F := Ideal) m c i) + (show EReal from Cert.KernelIdeal.Exch.xblk (F := Ideal) m (Cert.KernelIdeal.Exch.peer c) i) = _
  rw [hx c i, hx (Cert.KernelIdeal.Exch.peer c) i]
  exact sum_blocks _ i (yOf c) (yOf (Cert.KernelIdeal.Exch.peer c)) (yOf_peer c)

/-! ## The claim, from the kernel's run -/

/-- Given the kernel's run with each device's result named (its rounded block plus its partner's) and its argument
    unchanged, kernel and reference end with the same values: the reference's result is the witness. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.Exch.resultAt (F := Ideal) m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m ρ m' ρ' _ hagree
  refine ⟨refSum (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono ?_ (hrun m ρ), ref_run m' ρ'⟩
  intro r h c
  exact ⟨(h c).1.trans (result_eq m m' hagree c), (h c).2⟩

/-- info: 'Cert.Proof.Bridge.algebraic_of_run' depends on axioms: [propext, Classical.choice, Quot.sound] -/
#guard_msgs in #print axioms algebraic_of_run

end Cert.Proof.Bridge

end
-- ==== Proof.lean ====
/-
  The certificate of the pairwise exchange on sixteen devices. Each device ends holding its rounded block of `x` plus
  its partner's; the partner holds the other of the two 256-row blocks of `x`, so on every device the result is the two
  blocks summed, which is what the one-device reference computes (a sum of two extended reals in either order, over a
  zero initial value). The frames of the two kernel programs are one run, read at the word-level instance and at the
  ideal one, with the result dropped; the reference's frame is its run; nothing was rewritten by the ideal pass.
-/
import proofs.«900714_g7700000000000715_dist_ar_v7x_xyz2x2x4_y_m256_n256_bf16_1_alg».proof.Defs
import proofs.«900714_g7700000000000715_dist_ar_v7x_xyz2x2x4_y_m256_n256_bf16_1_alg».proof.Proof.Gen.Kernel
import proofs.«900714_g7700000000000715_dist_ar_v7x_xyz2x2x4_y_m256_n256_bf16_1_alg».proof.Proof.Gen.KernelIdeal
import proofs.«900714_g7700000000000715_dist_ar_v7x_xyz2x2x4_y_m256_n256_bf16_1_alg».proof.Proof.Gen.ReferenceIdeal
import proofs.«900714_g7700000000000715_dist_ar_v7x_xyz2x2x4_y_m256_n256_bf16_1_alg».proof.Proof.Gen.Pre_finite_inputs_Kernel
import proofs.«900714_g7700000000000715_dist_ar_v7x_xyz2x2x4_y_m256_n256_bf16_1_alg».proof.Proof.Gen.Pre_finite_inputs_ReferenceIdeal
import proofs.«900714_g7700000000000715_dist_ar_v7x_xyz2x2x4_y_m256_n256_bf16_1_alg».proof.Proof.Kernel.Launch
import proofs.«900714_g7700000000000715_dist_ar_v7x_xyz2x2x4_y_m256_n256_bf16_1_alg».proof.Proof.KernelIdeal.Launch
import proofs.«900714_g7700000000000715_dist_ar_v7x_xyz2x2x4_y_m256_n256_bf16_1_alg».proof.Proof.RefSide
import proofs.«900714_g7700000000000715_dist_ar_v7x_xyz2x2x4_y_m256_n256_bf16_1_alg».proof.Proof.Bridge
import Idealize.ShloMosaic.Adequacy
import Idealize.ShloMosaic.Init

noncomputable section

namespace Cert.Proof

open Idealize.ShloMosaic Idealize.SL.Sem

/-- The word-level program runs and leaves `x` unchanged: the exchange's run with the result dropped. -/
theorem frame_k : Cert.frame_Kernel := fun m ρ _ =>
  (θ_run Cert.Kernel.defs _ _).mono (fun _ h c => (h c).2) (Cert.Kernel.Exch.run (F := Bits) m ρ)

/-- The idealized program likewise. -/
theorem frame_ki : Cert.frame_KernelIdeal := fun m ρ _ =>
  (θ_run Cert.KernelIdeal.defs _ _).mono (fun _ h c => (h c).2) (Cert.KernelIdeal.Exch.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Proof.RefSide.frame_ref, trivial,
  Cert.Proof.Bridge.algebraic_of_run fun m ρ => Cert.KernelIdeal.Exch.run (F := Ideal) m ρ⟩

end Cert.Proof

end
